-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x512x16 : Shape := ⟨3, ![8192, 512, 16]⟩
abbrev S512 : Shape := ⟨1, ![512]⟩
abbrev S512x512 : Shape := ⟨2, ![512, 512]⟩
abbrev S512x1x3 : Shape := ⟨3, ![512, 1, 3]⟩
abbrev S512x16 : Shape := ⟨2, ![512, 16]⟩
abbrev S16x512 : Shape := ⟨2, ![16, 512]⟩
abbrev S16 : Shape := ⟨1, ![16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x512x16 : S_.BroadcastsInDim S8192x512x16 (![] : Fin 0 → Fin S8192x512x16.rank)
  reducesTo_S8192x512x16_S_d0_1_2 : S8192x512x16.ReducesTo [0, 1, 2] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1x3 : S_.BroadcastsInDim S512x1x3 (![] : Fin 0 → Fin S512x1x3.rank)
  reducesTo_S512x1x3_S_d0_1_2 : S512x1x3.ReducesTo [0, 1, 2] S_
  bcast_S_S512x16 : S_.BroadcastsInDim S512x16 (![] : Fin 0 → Fin S512x16.rank)
  reducesTo_S512x16_S_d0_1 : S512x16.ReducesTo [0, 1] S_
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S16x512 .f32) (main_arg15 : FVec F S16 .f32) (main_arg16 : FVec F S512x512 .f32) (main_arg17 : FVec F S512 .f32) (main_v63 : IVec S_ 1) (main_v67 : IVec S_ 1) : IVec S_ 1 :=
  let main_v68 : IVec S_ 1 := andi main_v63 main_v67
  let main_v69 : FVec F S16x512 .f32 := Host.absf main_arg14
  let main_cst_26 : FVec F S_ .f32 := constant S_ .f32 0x7F800000#32
  let main_v70 : FVec F S16x512 .f32 := broadcastInDim S16x512 ![] bcast_S_S16x512 main_cst_26
  let main_v71 : IVec S16x512 1 := cmpf .olt main_v69 main_v70
  let main_c_27 : IVec S_ 1 := constantI S_ 1 1#1
  let main_v72 : IVec S_ 1 := (fun x v => Host.reduce IntOp.andi x v reducesTo_S16x512_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512x16 .f32) (main_arg12 : FVec F S16x512 .f32) (main_arg13 : FVec F S16 .f32) (main_arg14 : FVec F S16x512 .f32) (main_arg15 : FVec F S16 .f32) (main_arg16 : FVec F S512x512 .f32) (main_arg17 : FVec F S512 .f32) (main_v48 : IVec S_ 1) (main_v49 : FVec F S512x1x3 .f32) (main_v50 : FVec F S512x1x3 .f32) : IVec S_ 1 :=
  let main_v51 : IVec S512x1x3 1 := cmpf .olt main_v49 main_v50
  let main_c_19 : IVec S_ 1 := constantI S_ 1 1#1
  let main_v52 : IVec S_ 1 := (fun x v => Host.reduce IntOp.andi x v reducesTo_S512x1x3_S_d0_1_2 h_S_) main_v51 main_c_19
  let main_v53 : IVec S_ 1 := andi main_v48 main_v52
  let main_v54 : FVec F S512x16 .f32 := Host.absf main_arg11
  let main_cst_20 : FVec F S_ .f32 := constant S_ .f32 0x7F800000#32
  let main_v55 : FVec F S512x16 .f32 := broadcastInDim S512x16 ![] bcast_S_S512x16 main_cst_20
  let main_v56 : IVec S512x16 1 := cmpf .olt main_v54 main_v55
  let main_c_21 : IVec S_ 1 := constantI S_ 1 1#1
  let main_v57 : IVec S_ 1 := (fun x v => Host.reduce IntOp.andi x v reducesTo_S512x16_S_d0_1 h_S_) main_v56 main_c_21
  let main_v58 : IVec S_ 1 := andi main_v53 main_v57
  let main_v59 : FVec F S16x512 .f32 := Host.absf main_arg12
  let main_cst_22 : FVec F S_ .f32 := constant S_ .f32 0x7F800000#32
  let main_v60 : FVec F S16x512 .f32 := broadcastInDim S16x512 ![] bcast_S_S16x512 main_cst_22
  let main_v61 : IVec S16x512 1 := cmpf .olt main_v59 main_v60
  let main_c_23 : IVec S_ 1 := constantI S_ 1 1#1
  let main_v62 : IVec S_ 1 := (fun x v => Host.reduce IntOp.andi x v reducesTo_S16x512_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_arg16 main_arg17 main_v63 main_v67

def fn_part2 {F : FTy → Type} [FloatOps F] (main_arg7 : FVec F S512 .f32) (main_arg8 : FVec F S512x512 .f32) (main_arg9 : FVec F S512 .f32) (main_arg10 : FVec F S512x1x3 .f32) (main_arg11 : FVec F S512x16 .f32) (main_arg12 : FVec F S16x512 .f32) (main_arg13 : FVec F S16 .f32) (main_arg14 : FVec F S16x512 .f32) (main_arg15 : FVec F S16 .f32) (main_arg16 : FVec F S512x512 .f32) (main_arg17 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1x3 .f32 := Host.absf main_arg10
  let main_cst_18 : FVec F S_ .f32 := constant S_ .f32 0x7F800000#32
  let main_v50 : FVec F S512x1x3 .f32 := broadcastInDim S512x1x3 ![] bcast_S_S512x1x3 main_cst_18
  fn_part3 (F := F) main_arg11 main_arg12 main_arg13 main_arg14 main_arg15 main_arg16 main_arg17 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x1x3 .f32) (main_arg11 : FVec F S512x16 .f32) (main_arg12 : FVec F S16x512 .f32) (main_arg13 : FVec F S16 .f32) (main_arg14 : FVec F S16x512 .f32) (main_arg15 : FVec F S16 .f32) (main_arg16 : FVec F S512x512 .f32) (main_arg17 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x512 .f32) (main_arg1 : FVec F S8192x512x16 .f32) (main_arg2 : FVec F S512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x1x3 .f32) (main_arg11 : FVec F S512x16 .f32) (main_arg12 : FVec F S16x512 .f32) (main_arg13 : FVec F S16 .f32) (main_arg14 : FVec F S16x512 .f32) (main_arg15 : FVec F S16 .f32) (main_arg16 : FVec F S512x512 .f32) (main_arg17 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512x16 .f32 := Host.absf main_arg1
  let main_cst_0 : FVec F S_ .f32 := constant S_ .f32 0x7F800000#32
  let main_v5 : FVec F S8192x512x16 .f32 := broadcastInDim S8192x512x16 ![] bcast_S_S8192x512x16 main_cst_0
  let main_v6 : IVec S8192x512x16 1 := cmpf .olt main_v4 main_v5
  let main_c_1 : IVec S_ 1 := constantI S_ 1 1#1
  let main_v7 : IVec S_ 1 := (fun x v => Host.reduce IntOp.andi x v reducesTo_S8192x512x16_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x512 : Shape := ⟨2, ![8192, 512]⟩
abbrev S8192x512x16 : Shape := ⟨3, ![8192, 512, 16]⟩
abbrev S512 : Shape := ⟨1, ![512]⟩
abbrev S512x512 : Shape := ⟨2, ![512, 512]⟩
abbrev S512x1x3 : Shape := ⟨3, ![512, 1, 3]⟩
abbrev S512x16 : Shape := ⟨2, ![512, 16]⟩
abbrev S16x512 : Shape := ⟨2, ![16, 512]⟩
abbrev S16 : Shape := ⟨1, ![16]⟩
abbrev S512x1x1 : Shape := ⟨3, ![512, 1, 1]⟩
abbrev S32x512 : Shape := ⟨2, ![32, 512]⟩
abbrev S32x512x16 : Shape := ⟨3, ![32, 512, 16]⟩
abbrev S32 : Shape := ⟨1, ![32]⟩
abbrev S32x1 : Shape := ⟨2, ![32, 1]⟩
abbrev S1x512 : Shape := ⟨2, ![1, 512]⟩
abbrev S32x16 : Shape := ⟨2, ![32, 16]⟩
abbrev S1x16 : Shape := ⟨2, ![1, 16]⟩
abbrev S512x1 : Shape := ⟨2, ![512, 1]⟩
abbrev S32x512x1 : Shape := ⟨3, ![32, 512, 1]⟩

abbrev nBuf : Space → Nat
  | .hbm => 34
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512x16, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x1x3, .f32⟩
  | .hbm, ⟨11, _⟩ => ⟨S512x16, .f32⟩
  | .hbm, ⟨12, _⟩ => ⟨S16x512, .f32⟩
  | .hbm, ⟨13, _⟩ => ⟨S16, .f32⟩
  | .hbm, ⟨14, _⟩ => ⟨S16x512, .f32⟩
  | .hbm, ⟨15, _⟩ => ⟨S16, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .bf16⟩
  | .hbm, ⟨22, _⟩ => ⟨S512x512, .f32⟩
  | .hbm, ⟨23, _⟩ => ⟨S512x512, .bf16⟩
  | .hbm, ⟨24, _⟩ => ⟨S512x512, .f32⟩
  | .hbm, ⟨25, _⟩ => ⟨S512x512, .bf16⟩
  | .hbm, ⟨26, _⟩ => ⟨S512x16, .f32⟩
  | .hbm, ⟨27, _⟩ => ⟨S512x16, .bf16⟩
  | .hbm, ⟨28, _⟩ => ⟨S512x16, .f32⟩
  | .hbm, ⟨29, _⟩ => ⟨S512x16, .bf16⟩
  | .hbm, ⟨30, _⟩ => ⟨S512x1x1, .f32⟩
  | .hbm, ⟨31, _⟩ => ⟨S512, .f32⟩
  | .hbm, ⟨32, _⟩ => ⟨S8192x512, .f32⟩
  | .hbm, ⟨33, _⟩ => ⟨S8192x512x16, .f32⟩
  | .local _ .vmem, ⟨0, _⟩ => ⟨S32x512, .f32⟩
  | .local _ .vmem, ⟨1, _⟩ => ⟨S32x512, .f32⟩
  | .local _ .vmem, ⟨2, _⟩ => ⟨S32x512x16, .f32⟩
  | .local _ .vmem, ⟨3, _⟩ => ⟨S32x512x16, .f32⟩
  | .local _ .vmem, ⟨4, _⟩ => ⟨S512, .f32⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S512x512, .bf16⟩
  | .local _ .vmem, ⟨13, _⟩ => ⟨S512, .f32⟩
  | .local _ .vmem, ⟨14, _⟩ => ⟨S512, .f32⟩
  | .local _ .vmem, ⟨15, _⟩ => ⟨S512x16, .f32⟩
  | .local _ .vmem, ⟨16, _⟩ => ⟨S512x16, .bf16⟩
  | .local _ .vmem, ⟨17, _⟩ => ⟨S16, .f32⟩
  | .local _ .vmem, ⟨18, _⟩ => ⟨S512x16, .bf16⟩
  | .local _ .vmem, ⟨19, _⟩ => ⟨S16, .f32⟩
  | .local _ .vmem, ⟨20, _⟩ => ⟨S32x512, .f32⟩
  | .local _ .vmem, ⟨21, _⟩ => ⟨S32x512, .f32⟩
  | .local _ .vmem, ⟨22, _⟩ => ⟨S32x512x16, .f32⟩
  | .local _ .vmem, ⟨23, _⟩ => ⟨S32x512x16, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x16 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x16 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S32x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x512x16 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  transposes_S512x512_S512x512_1_0 : S512x512.Transposes [1, 0] S512x512
  bitsLt_bf16_f32 : FTy.bits .bf16 < FTy.bits .f32
  transposes_S16x512_S512x16_1_0 : S16x512.Transposes [1, 0] S512x16
  slices_S512x1x3_S512x1x1_0_0_1 : S512x1x3.Slices ![0, 0, 1] S512x1x1
  shapeCasts_S512x1x1_S512 : S512x1x1.ShapeCasts S512
  inb_S32x512_S32x512_0_0 : ∀ a, (![0, 0] : Fin 2 → Nat) a + S32x512.size a ≤ S32x512.size a
  h_S32x512 : 0 < S32x512.numel
  reduces_S32x512_S32 : S32x512.Reduces [1] S32
  shapeCasts_S32_S32x1 : S32.ShapeCasts S32x1
  broadcasts_S32x1_S32x512 : S32x1.Broadcasts S32x512
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512_S512 : S512.ShapeCasts S512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16_S16_0 : ∀ a, (![0] : Fin 1 → Nat) a + S16.size a ≤ S16.size a
  h_S16 : 0 < S16.numel
  shapeCasts_S16_S1x16 : S16.ShapeCasts S1x16
  broadcasts_S1x16_S32x16 : S1x16.Broadcasts S32x16
  slices_S512x16_o0_0_S512x1 : S512x16.Slices ![0, 0] S512x1
  shapeCasts_S512x1_S512 : S512x1.ShapeCasts S512
  slices_S32x16_o0_0_S32x1 : S32x16.Slices ![0, 0] S32x1
  shapeCasts_S32x1_S32 : S32x1.ShapeCasts S32
  inb_S32x512x16_S32x512x1_0_0_0 : ∀ a, (![0, 0, 0] : Fin 3 → Nat) a + S32x512x1.size a ≤ S32x512x16.size a
  h_S32x512x1 : 0 < S32x512x1.numel
  shapeCasts_S32x512x1_S32x512 : S32x512x1.ShapeCasts S32x512
  shapeCasts_S32x512_S32x512x1 : S32x512.ShapeCasts S32x512x1
  slices_S512x16_o0_1_S512x1 : S512x16.Slices ![0, 1] S512x1
  slices_S32x16_o0_1_S32x1 : S32x16.Slices ![0, 1] S32x1
  inb_S32x512x16_S32x512x1_0_0_1 : ∀ a, (![0, 0, 1] : Fin 3 → Nat) a + S32x512x1.size a ≤ S32x512x16.size a
  slices_S512x16_o0_2_S512x1 : S512x16.Slices ![0, 2] S512x1
  slices_S32x16_o0_2_S32x1 : S32x16.Slices ![0, 2] S32x1
  inb_S32x512x16_S32x512x1_0_0_2 : ∀ a, (![0, 0, 2] : Fin 3 → Nat) a + S32x512x1.size a ≤ S32x512x16.size a
  slices_S512x16_o0_3_S512x1 : S512x16.Slices ![0, 3] S512x1
  slices_S32x16_o0_3_S32x1 : S32x16.Slices ![0, 3] S32x1
  inb_S32x512x16_S32x512x1_0_0_3 : ∀ a, (![0, 0, 3] : Fin 3 → Nat) a + S32x512x1.size a ≤ S32x512x16.size a
  slices_S512x16_o0_4_S512x1 : S512x16.Slices ![0, 4] S512x1
  slices_S32x16_o0_4_S32x1 : S32x16.Slices ![0, 4] S32x1
  inb_S32x512x16_S32x512x1_0_0_4 : ∀ a, (![0, 0, 4] : Fin 3 → Nat) a + S32x512x1.size a ≤ S32x512x16.size a
  slices_S512x16_o0_5_S512x1 : S512x16.Slices ![0, 5] S512x1
  slices_S32x16_o0_5_S32x1 : S32x16.Slices ![0, 5] S32x1
  inb_S32x512x16_S32x512x1_0_0_5 : ∀ a, (![0, 0, 5] : Fin 3 → Nat) a + S32x512x1.size a ≤ S32x512x16.size a
  slices_S512x16_o0_6_S512x1 : S512x16.Slices ![0, 6] S512x1
  slices_S32x16_o0_6_S32x1 : S32x16.Slices ![0, 6] S32x1
  inb_S32x512x16_S32x512x1_0_0_6 : ∀ a, (![0, 0, 6] : Fin 3 → Nat) a + S32x512x1.size a ≤ S32x512x16.size a
  slices_S512x16_o0_7_S512x1 : S512x16.Slices ![0, 7] S512x1
  slices_S32x16_o0_7_S32x1 : S32x16.Slices ![0, 7] S32x1
  inb_S32x512x16_S32x512x1_0_0_7 : ∀ a, (![0, 0, 7] : Fin 3 → Nat) a + S32x512x1.size a ≤ S32x512x16.size a
  slices_S512x16_o0_8_S512x1 : S512x16.Slices ![0, 8] S512x1
  slices_S32x16_o0_8_S32x1 : S32x16.Slices ![0, 8] S32x1
  inb_S32x512x16_S32x512x1_0_0_8 : ∀ a, (![0, 0, 8] : Fin 3 → Nat) a + S32x512x1.size a ≤ S32x512x16.size a
  slices_S512x16_o0_9_S512x1 : S512x16.Slices ![0, 9] S512x1
  slices_S32x16_o0_9_S32x1 : S32x16.Slices ![0, 9] S32x1
  inb_S32x512x16_S32x512x1_0_0_9 : ∀ a, (![0, 0, 9] : Fin 3 → Nat) a + S32x512x1.size a ≤ S32x512x16.size a
  slices_S512x16_o0_10_S512x1 : S512x16.Slices ![0, 10] S512x1
  slices_S32x16_o0_10_S32x1 : S32x16.Slices ![0, 10] S32x1
  inb_S32x512x16_S32x512x1_0_0_10 : ∀ a, (![0, 0, 10] : Fin 3 → Nat) a + S32x512x1.size a ≤ S32x512x16.size a
  slices_S512x16_o0_11_S512x1 : S512x16.Slices ![0, 11] S512x1
  slices_S32x16_o0_11_S32x1 : S32x16.Slices ![0, 11] S32x1
  inb_S32x512x16_S32x512x1_0_0_11 : ∀ a, (![0, 0, 11] : Fin 3 → Nat) a + S32x512x1.size a ≤ S32x512x16.size a
  slices_S512x16_o0_12_S512x1 : S512x16.Slices ![0, 12] S512x1
  slices_S32x16_o0_12_S32x1 : S32x16.Slices ![0, 12] S32x1
  inb_S32x512x16_S32x512x1_0_0_12 : ∀ a, (![0, 0, 12] : Fin 3 → Nat) a + S32x512x1.size a ≤ S32x512x16.size a
  slices_S512x16_o0_13_S512x1 : S512x16.Slices ![0, 13] S512x1
  slices_S32x16_o0_13_S32x1 : S32x16.Slices ![0, 13] S32x1
  inb_S32x512x16_S32x512x1_0_0_13 : ∀ a, (![0, 0, 13] : Fin 3 → Nat) a + S32x512x1.size a ≤ S32x512x16.size a
  slices_S512x16_o0_14_S512x1 : S512x16.Slices ![0, 14] S512x1
  slices_S32x16_o0_14_S32x1 : S32x16.Slices ![0, 14] S32x1
  inb_S32x512x16_S32x512x1_0_0_14 : ∀ a, (![0, 0, 14] : Fin 3 → Nat) a + S32x512x1.size a ≤ S32x512x16.size a
  slices_S512x16_o0_15_S512x1 : S512x16.Slices ![0, 15] S512x1
  slices_S32x16_o0_15_S32x1 : S32x16.Slices ![0, 15] S32x1
  inb_S32x512x16_S32x512x1_0_0_15 : ∀ a, (![0, 0, 15] : Fin 3 → Nat) a + S32x512x1.size a ≤ S32x512x16.size a
  dot_S32x512_S512x512_S32x512_1_0_0_1_n_n_wf : DotDims.WF S32x512 S512x512 S32x512 [1] [0] [0] [1] [] []
  dot_S32x512_S512x16_S32x16_1_0_0_1_n_n_wf : DotDims.WF S32x512 S512x16 S32x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S8192x512.size a
  hwx0_0 : ∀ i : grid0.Coords, EltTy.bits .f32 = 32 ∨ (Rect.block (s := S8192x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512x16.size a ≤ S8192x512x16.size a
  hwx0_1 : ∀ i : grid0.Coords, EltTy.bits .f32 = 32 ∨ (Rect.block (s := S8192x512x16) S32x512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x16.size a ≤ S512x16.size a
  hwx0_13 : ∀ i : grid0.Coords, EltTy.bits .f32 = 32 ∨ (Rect.block (s := S512x16) S512x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x16.size a ≤ S512x16.size a
  hwx0_14 : ∀ i : grid0.Coords, EltTy.bits .bf16 = 32 ∨ (Rect.block (s := S512x16) S512x16.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16.size a ≤ S16.size a
  hwx0_15 : ∀ i : grid0.Coords, EltTy.bits .f32 = 32 ∨ (Rect.block (s := S16) S16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x16.size a ≤ S512x16.size a
  hwx0_16 : ∀ i : grid0.Coords, EltTy.bits .bf16 = 32 ∨ (Rect.block (s := S512x16) S512x16.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16.size a ≤ S16.size a
  hwx0_17 : ∀ i : grid0.Coords, EltTy.bits .f32 = 32 ∨ (Rect.block (s := S16) S16.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S32x512.size a ≤ S8192x512.size a
  hwx0_18 : ∀ i : grid0.Coords, EltTy.bits .f32 = 32 ∨ (Rect.block (s := S8192x512) S32x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S32x512x16.size a ≤ S8192x512x16.size a
  hwx0_19 : ∀ i : grid0.Coords, EltTy.bits .f32 = 32 ∨ (Rect.block (s := S8192x512x16) S32x512x16.size (cc0_transform_19 i) (hinb0_19 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x16_S32x16_1_0_0_1_n_n : DotDims S32x512 S512x16 S32x16 where
  lhsContracting := [1]
  rhsContracting := [0]
  lhsNonContracting := [0]
  rhsNonContracting := [1]
  lhsBatch := []
  rhsBatch := []
  wf := dot_S32x512_S512x16_S32x16_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg17) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S512x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S512x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S512x16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v14_0) S32x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v14_1) S32x512x16.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x512x16 : Shape := ⟨3, ![8192, 512, 16]⟩
abbrev S512 : Shape := ⟨1, ![512]⟩
abbrev S512x512 : Shape := ⟨2, ![512, 512]⟩
abbrev S512x1x3 : Shape := ⟨3, ![512, 1, 3]⟩
abbrev S512x16 : Shape := ⟨2, ![512, 16]⟩
abbrev S16x512 : Shape := ⟨2, ![16, 512]⟩
abbrev S16 : Shape := ⟨1, ![16]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S512x1x1 : Shape := ⟨3, ![512, 1, 1]⟩
abbrev S8192x16 : Shape := ⟨2, ![8192, 16]⟩
abbrev S1x16 : Shape := ⟨2, ![1, 16]⟩
abbrev S8192x512x1 : Shape := ⟨3, ![8192, 512, 1]⟩
abbrev S1x512x16 : Shape := ⟨3, ![1, 512, 16]⟩
abbrev S8192x1x16 : Shape := ⟨3, ![8192, 1, 16]⟩

abbrev nBuf : Space → Nat
  | .hbm => 138
  | .vmem => 0
  | .smem => 0
  | _ => 0

abbrev hbmTy0_0 (i : Nat) : BufTy := match i % 128 with
  | 0 => ⟨S8192x512, .f32⟩
  | 1 => ⟨S8192x512x16, .f32⟩
  | 2 => ⟨S512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x1x3, .f32⟩
  | 11 => ⟨S512x16, .f32⟩
  | 12 => ⟨S16x512, .f32⟩
  | 13 => ⟨S16, .f32⟩
  | 14 => ⟨S16x512, .f32⟩
  | 15 => ⟨S16, .f32⟩
  | 16 => ⟨S512x512, .f32⟩
  | 17 => ⟨S512, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x512, .f32⟩
  | 25 => ⟨S8192x512, .f32⟩
  | 26 => ⟨S8192x512, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x512, .f32⟩
  | 34 => ⟨S8192x512, .f32⟩
  | 35 => ⟨S_, .f32⟩
  | 36 => ⟨S8192x1, .f32⟩
  | 37 => ⟨S8192x1, .f32⟩
  | 38 => ⟨S8192x1, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S512x512, .f32⟩
  | 48 => ⟨S8192x512, .f32⟩
  | 49 => ⟨S1x512, .f32⟩
  | 50 => ⟨S8192x512, .f32⟩
  | 51 => ⟨S8192x512, .f32⟩
  | 52 => ⟨S512x1x1, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S512x16, .f32⟩
  | 67 => ⟨S512x16, .f32⟩
  | 68 => ⟨S512x512, .f32⟩
  | 69 => ⟨S8192x512, .f32⟩
  | 70 => ⟨S1x512, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S8192x512, .f32⟩
  | 77 => ⟨S8192x512, .f32⟩
  | 78 => ⟨S8192x512, .i1⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S512x16, .f32⟩
  | 88 => ⟨S8192x16, .f32⟩
  | 89 => ⟨S1x16, .f32⟩
  | 90 => ⟨S8192x16, .f32⟩
  | 91 => ⟨S8192x16, .f32⟩
  | 92 => ⟨S512x16, .f32⟩
  | 93 => ⟨S8192x16, .f32⟩
  | 94 => ⟨S1x16, .f32⟩
  | 95 => ⟨S8192x16, .f32⟩
  | 96 => ⟨S8192x16, .f32⟩
  | 97 => ⟨S8192x512x1, .f32⟩
  | 98 => ⟨S1x512x16, .f32⟩
  | 99 => ⟨S8192x512x16, .f32⟩
  | 100 => ⟨S8192x512x16, .f32⟩
  | 101 => ⟨S8192x512x16, .f32⟩
  | 102 => ⟨S8192x512x16, .f32⟩
  | 103 => ⟨S8192x512x16, .f32⟩
  | 104 => ⟨S8192x512x1, .f32⟩
  | 105 => ⟨S8192x1x16, .f32⟩
  | 106 => ⟨S8192x512x16, .f32⟩
  | 107 => ⟨S8192x512x16, .f32⟩
  | 108 => ⟨S8192x512x16, .f32⟩
  | 109 => ⟨S8192x512x1, .f32⟩
  | 110 => ⟨S8192x512x16, .f32⟩
  | 111 => ⟨S8192x512x16, .f32⟩
  | 112 => ⟨S8192x512x16, .f32⟩
  | 113 => ⟨S8192x1x16, .f32⟩
  | 114 => ⟨S8192x512x16, .f32⟩
  | 115 => ⟨S8192x512x16, .f32⟩
  | 116 => ⟨S_, .f32⟩
  | 117 => ⟨S8192x512, .f32⟩
  | 118 => ⟨S512x512, .f32⟩
  | 119 => ⟨S8192x512, .f32⟩
  | 120 => ⟨S1x512, .f32⟩
  | 121 => ⟨S8192x512, .f32⟩
  | 122 => ⟨S8192x512, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x512, .f32⟩

abbrev hbmTy0_1 (i : Nat) : BufTy := match i % 128 with
  | 0 => ⟨S_, .f32⟩
  | 1 => ⟨S8192x512, .f32⟩
  | 2 => ⟨S8192x512, .f32⟩
  | 3 => ⟨S8192x512, .f32⟩
  | 4 => ⟨S8192x512, .f32⟩
  | 5 => ⟨S512x512, .f32⟩
  | 6 => ⟨S8192x512, .f32⟩
  | 7 => ⟨S1x512, .f32⟩
  | 8 => ⟨S8192x512, .f32⟩
  | 9 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_4 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_call2_v0 : Ref sig .tc := ⟨.hbm, 123, rfl⟩
abbrev main_call2_v1 : Ref sig .tc := ⟨.hbm, 124, rfl⟩
abbrev main_call2_cst : Ref sig .tc := ⟨.hbm, 125, rfl⟩
abbrev main_call2_v2 : Ref sig .tc := ⟨.hbm, 126, rfl⟩
abbrev main_call2_v3 : Ref sig .tc := ⟨.hbm, 127, rfl⟩
abbrev main_call2_cst_0 : Ref sig .tc := ⟨.hbm, 128, rfl⟩
abbrev main_call2_v4 : Ref sig .tc := ⟨.hbm, 129, rfl⟩
abbrev main_call2_v5 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S512x512_S512x512_1_0 : S512x512.Transposes [1, 0] S512x512
  slices_S512x1x3_S512x1x1_0_0_1 : S512x1x3.Slices ![0, 0, 1] S512x1x1
  shapeCasts_S512x1x1_S512 : S512x1x1.ShapeCasts S512
  bcast_S_S8192x512 : S_.BroadcastsInDim S8192x512 (![] : Fin 0 → Fin S8192x512.rank)
  transposes_S16x512_S512x16_1_0 : S16x512.Transposes [1, 0] S512x16
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S8192x512_S8192x512x1_0_1 : S8192x512.BroadcastsInDim S8192x512x1 (![0, 1] : Fin 2 → Fin S8192x512x1.rank)
  bcast_S512x16_S1x512x16_1_2 : S512x16.BroadcastsInDim S1x512x16 (![1, 2] : Fin 2 → Fin S1x512x16.rank)
  bcast_S8192x512x1_S8192x512x16_0_1_2 : S8192x512x1.BroadcastsInDim S8192x512x16 (![0, 1, 2] : Fin 3 → Fin S8192x512x16.rank)
  bcast_S1x512x16_S8192x512x16_0_1_2 : S1x512x16.BroadcastsInDim S8192x512x16 (![0, 1, 2] : Fin 3 → Fin S8192x512x16.rank)
  bcast_S8192x16_S8192x1x16_0_2 : S8192x16.BroadcastsInDim S8192x1x16 (![0, 2] : Fin 2 → Fin S8192x1x16.rank)
  bcast_S8192x1x16_S8192x512x16_0_1_2 : S8192x1x16.BroadcastsInDim S8192x512x16 (![0, 1, 2] : Fin 3 → Fin S8192x512x16.rank)
  reducesTo_S8192x512x16_S8192x512_d2 : S8192x512x16.ReducesTo [2] S8192x512
  dot_S8192x512_S512x512_S8192x512_1_0_0_1_n_n_wf : DotDims.WF S8192x512 S512x512 S8192x512 [1] [0] [0] [1] [] []
  dot_S8192x512_S512x16_S8192x16_1_0_0_1_n_n_wf : DotDims.WF S8192x512 S512x16 S8192x16 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf

class Facts : Prop extends Facts₀ where

variable [Facts]
-- ==== Proof.Spec.lean ====
/-
  What the block computes, one batch row at a time, on the extended reals.

  A row of the input `xr : Fin 512 → EReal` is normalised (mean and variance over its 512 entries, the variance shifted by
  a small constant before the reciprocal square root, then scaled and shifted entrywise), sent through a first 512×512 map
  and a per-channel factor into `z ↦ z · logistic z`; from that vector come a step size per channel (a second 512×512 map
  through `softplus`) and two 16-vectors (two 512×16 maps). Each of the 16 slots of a channel's state decays by
  `exp (step · a)` with `a = -exp (alog)` and gains `step · bm · conv`; the slots are summed against the second 16-vector,
  gated by a third 512×512 map of the normalised row through `z · logistic z`, and a last 512×512 map gives the output row.
  Every matrix is written in the orientation in which it is contracted: `M k j` multiplies entry `k` of the vector.
  Each function takes exactly the parameters it uses.

  The scalar identities at the end are the only places where the two programs spell one function differently: the test
  `d ≠ d` (never true on the extended reals) in front of `softplus`, `0 - e` for `-e`, `1 / (1 + exp (-z))` for the
  logistic function, a sum started from a zero, and sixteen terms added one after the other.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic Idealize.ShloMosaic.ValueIdx
open scoped BigOperators

/-- A vector of 512 entries, a 512×512 matrix, a 512×16 matrix, a vector of 16 entries. -/
abbrev V512 := Fin 512 → EReal
abbrev M512 := Fin 512 → Fin 512 → EReal
abbrev M16 := Fin 512 → Fin 16 → EReal
abbrev V16 := Fin 16 → EReal

/-- The normalisation's scale and shift. -/
structure LN where
  g : V512
  b : V512

/-- Everything the convolved activation depends on: the normalisation, the first map, its bias, the per-channel factor. -/
structure CW where
  ln : LN
  w1 : M512
  b1 : V512
  cc : V512

/-- The row length as a float, and the variance's shift: the words both programs carry. -/
def c512 : EReal := Ideal.ofBits .f32 0x44000000#32
def ceps : EReal := Ideal.ofBits .f32 0x3727C5AC#32

def mean (f : V512) : EReal := Ideal.div (∑ k : Fin 512, f k) c512

def centred (xr : V512) (q : Fin 512) : EReal := xr q - mean xr

def variance (xr : V512) : EReal := mean fun k => centred xr k * centred xr k

def normed (l : LN) (xr : V512) (q : Fin 512) : EReal :=
  centred xr q * Ideal.rsqrt (variance xr + ceps) * l.g q + l.b q

def silu (z : EReal) : EReal := z * Ideal.logistic z

def softplus (z : EReal) : EReal := max z 0 + Ideal.log1p (Ideal.exp (-(max z (-z))))

/-- A vector through a matrix plus a bias, at output coordinate `j`. -/
def lin {n : Nat} (v : V512) (M : Fin 512 → Fin n → EReal) (bias : Fin n → EReal) (j : Fin n) : EReal :=
  (∑ k : Fin 512, v k * M k j) + bias j

def conv (c : CW) (xr : V512) (q : Fin 512) : EReal :=
  silu (lin (normed c.ln xr) c.w1 c.b1 q * c.cc q)

/-- The step size per channel. -/
def delta (c : CW) (dt : M512) (dtb : V512) (xr : V512) (q : Fin 512) : EReal :=
  softplus (lin (conv c xr) dt dtb q)

/-- Either of the two 16-vectors: the convolved activation through a 512×16 map. -/
def proj16 (c : CW) (M : M16) (bias : V16) (xr : V512) (s : Fin 16) : EReal := lin (conv c xr) M bias s

def amat (alog : M16) (d : Fin 512) (s : Fin 16) : EReal := -(Ideal.exp (alog d s))

/-- One slot's update from its old value `sv`: decay by `exp (step · a)`, gain `step · b · x`. -/
def step (sv dl a b x : EReal) : EReal := sv * Ideal.exp (dl * a) + dl * b * x

/-- Slot `s` of channel `d`'s state after the step. -/
def stateNew (c : CW) (dt : M512) (dtb : V512) (bp : M16) (bpb : V16) (alog : M16) (xr : V512) (sr : M16)
    (d : Fin 512) (s : Fin 16) : EReal :=
  step (sr d s) (delta c dt dtb xr d) (amat alog d s) (proj16 c bp bpb xr s) (conv c xr d)

def ssm (c : CW) (dt : M512) (dtb : V512) (bp : M16) (bpb : V16) (alog : M16) (cp : M16) (cpb : V16) (xr : V512) (sr : M16)
    (d : Fin 512) : EReal :=
  ∑ s : Fin 16, stateNew c dt dtb bp bpb alog xr sr d s * proj16 c cp cpb xr s

def gate (l : LN) (v1 : M512) (v1b : V512) (xr : V512) (d : Fin 512) : EReal := silu (lin (normed l xr) v1 v1b d)

def out (c : CW) (dt : M512) (dtb : V512) (bp : M16) (bpb : V16) (alog : M16) (cp : M16) (cpb : V16)
    (v1 : M512) (v1b : V512) (w2 : M512) (w2b : V512) (xr : V512) (sr : M16) (q : Fin 512) : EReal :=
  lin (fun d => ssm c dt dtb bp bpb alog cp cpb xr sr d * gate c.ln v1 v1b xr d) w2 w2b q

/-! ## Where the two programs spell one function differently -/

/-- The zero word. -/
abbrev Z : EReal := Ideal.ofBits .f32 0x00000000#32

theorem Z_eq : Z = 0 := Ideal.ofBits_zero_f32

/-- No extended real differs from itself, whichever of the two "not equal" predicates asks. -/
theorem cmp_one_self (d : EReal) : Ideal.cmp .one d d = 0#1 := by simp [Ideal.cmp]

theorem cmp_une_self (d : EReal) : Ideal.cmp .une d d = 0#1 := by simp [Ideal.cmp]

/-- `softplus` as the kernel spells it: the guard never fires, `z - 0 = z`, `0 - y = -y`. -/
theorem softplus_kernel (z : EReal) :
    Scalar.select (Ideal.cmp .one (z - Z) (z - Z)) (z + Z)
        (max z Z + Ideal.log1p (Ideal.exp (Z - max (z - Z) (-(z - Z))))) = softplus z := by
  rw [cmp_one_self, select_zero, Z_eq, sub_zero, zero_sub]; rfl

/-- `softplus` as the host spells it. -/
theorem softplus_host (z : EReal) :
    Scalar.select (Ideal.cmp .une (z - Z) (z - Z)) (z + Z)
        (max z Z + Ideal.log1p (Ideal.exp (-(max (z - Z) (-(z - Z)))))) = softplus z := by
  rw [cmp_une_self, select_zero, Z_eq, sub_zero]; rfl

/-- The host's `z · (1 / (1 + exp (-z)))` is `z · logistic z`. -/
theorem silu_host (z : EReal) :
    z * Ideal.div (Ideal.ofBits .f32 0x3F800000#32) (Ideal.ofBits .f32 0x3F800000#32 + Ideal.exp (-z)) = silu z := by
  rw [Ideal.ofBits_one_f32]; rfl

/-- The kernel's `0 - e`. -/
theorem zero_sub_eq (e : EReal) : Z - e = -e := by rw [Z_eq, zero_sub]

/-- A sum started from the zero word. -/
theorem zero_add_eq (e : EReal) : Z + e = e := by rw [Z_eq, zero_add]

/-- The host's mean starts its sum from the zero word. -/
theorem mean_host (f : V512) : Ideal.div (Z + ∑ k : Fin 512, f k) c512 = mean f := by
  rw [zero_add_eq]; rfl

/-- Sixteen terms added one after the other onto a zero are their sum. -/
theorem fold16 (t : Fin 16 → EReal) :
    Z + t 0 + t 1 + t 2 + t 3 + t 4 + t 5 + t 6 + t 7 + t 8 + t 9 + t 10 + t 11 + t 12 + t 13 + t 14 + t 15
      = ∑ s : Fin 16, t s := by
  rw [Z_eq, zero_add]
  simp only [Fin.sum_univ_succ, Fin.sum_univ_zero, add_zero, add_assoc]
  rfl

end Cert.Spec

end
-- ==== Proof.LibMatRows.lean ====
/-
  General lemmas for matrices read at coordinates on the extended reals, for any extents.

  * A product with the plain dimension numbers (contract the left operand's columns with the right operand's rows, no
    batch axis) read at (p, q) is the sum over k of l (p, k) · r (k, q): for a kernel's matrix product into a zero
    accumulator and for the host's dot_general alike. A printed dimension record with these numbers IS the library's
    plain record (the fields agree and the well-formedness proof is a proposition), so the lemmas take the record and
    that equation.
  * A sum along the rows of a rank-2 array, read at row p, is the sum over the columns k of the array at (p, k): for a
    vector reduction and for the host's reduce (which adds its initial value) alike.
-/
import Idealize.ShloMosaic.PureOps.Ideal
import Idealize.ShloMosaic.PureOps.Ideal.Laws
import Idealize.ShloMosaic.Lib.ValueIdx

noncomputable section

namespace Cert.LibMatRows

open Idealize.ShloMosaic Idealize.ShloMosaic.ValueIdx
open scoped BigOperators

/-! ## The plain product -/

section Plain
variable (M K N : Nat)

/-- The plain record contracts one axis of extent K. -/
abbrev kEquiv : (DotDims.plain M K N).contr.Idx ≃ Fin K := contrEquiv1 (DotDims.plain M K N) K rfl rfl

/-- The left operand is read at (p, k). -/
theorem plain_lhsIdx (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single (cl := 1) rfl (ix2 p q) ((kEquiv M K N).symm k)).trans
      (contrEquiv1_symm_val (DotDims.plain M K N) K rfl rfl k)

/-- The right operand is read at (k, q). -/
theorem plain_rhsIdx (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single (cr := 0) rfl (ix2 p q) ((kEquiv M K N).symm k)).trans
      (contrEquiv1_symm_val (DotDims.plain M K N) K rfl rfl k)
  | ⟨1, _⟩ => rfl

/-- The contraction's sum, re-indexed by the contracted coordinate. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (kEquiv M K N).symm]
  exact Finset.sum_congr rfl fun k _ => by rw [plain_lhsIdx, plain_rhsIdx]

end Plain

/-- A kernel's matrix product into the zero accumulator, with plain dimension numbers, at (p, q). -/
theorem matmul_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum M K N l r p q)

/-- The host's dot_general with plain dimension numbers, at (p, q). -/
theorem dotGeneral_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  exact (Ideal.dotGeneral_apply _ prec .single l r (ix2 p q)).trans (plain_sum M K N l r p q)

/-! ## Row sums -/

/-- The index a row-sum reads: row p, column k. -/
theorem lift_rows {A B : Nat} (h : (⟨2, ![A, B]⟩ : Shape).Reduces [1] ⟨1, ![A]⟩) (p : Fin A) (k : Fin B) :
    h.lift (ix1 p) k = ix2 p k := by
  funext a
  apply Fin.ext
  match a with
  | ⟨0, _⟩ => rfl
  | ⟨1, _⟩ => rfl

/-- A vector reduction by addition along the rows, at row p. -/
theorem multiReduction_rows_apply {A B : Nat} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) :=
  (Ideal.multiReduction_add_single src acc h hφ hacc (ix1 p)).trans
    (Finset.sum_congr rfl fun k _ => congrArg src (lift_rows h p k))

/-- The host's reduce by addition along the rows, at row p: the initial value plus the row's sum. -/
theorem hostReduceAdd_rows_apply {A B : Nat} {φ : FTy} {u : Shape} (x : FVec Ideal ⟨2, ![A, B]⟩ φ) (init : u.Idx → Ideal φ)
    (h' : (⟨2, ![A, B]⟩ : Shape).ReducesTo [1] ⟨1, ![A]⟩) (hu : 0 < u.numel)
    (h : (⟨2, ![A, B]⟩ : Shape).Reduces [1] ⟨1, ![A]⟩) (p : Fin A) :
    Host.reduceAdd x init h' hu (ix1 p) = init (Shape.Idx.first hu) + ∑ k : Fin B, x (ix2 p k) :=
  (Ideal.hostReduceAdd_single h' h x (init (Shape.Idx.first hu)) (ix1 p)).trans
    (congrArg (init (Shape.Idx.first hu) + ·) (Finset.sum_congr rfl fun k _ => congrArg x (lift_rows h p k)))

end Cert.LibMatRows

end
-- ==== Proof.LibLayoutCols.lean ====
/-
  General lemmas, for any extents: the column forms of the layout operations read at coordinates.

  * A vector [a] viewed as a column [a, 1], and a column viewed as a vector: entry `i` either way.
  * A column [a, 1] spread over [a, b]: row `p`'s one entry at every column.
  * A trailing unit axis dropped from [a, b, 1] or added to [a, b]: the entry at (p, q) either way.
  * A unit-stride cut of a matrix along its columns that keeps ONE column `o`: the entry at (i, o).
  * A kernel's f32 sum along the rows into the zero word, with the accumulator's evidence spelt as a kernel prints it
    (`0 = 0`): row p's sum over the columns.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibLayoutCols

open Idealize.ShloMosaic Idealize.ShloMosaic.ValueIdx
open scoped BigOperators

variable {α : Type}

/-- A vector viewed as a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column viewed as a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column spread over the columns reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A trailing unit axis dropped: the entry at (p, q) is the operand's at (p, q, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- A trailing unit axis added: the entry at (p, q, u) is the operand's at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    omega)

/-- One column `o` cut out of a matrix: the entry at (i, 0) of the cut is the matrix's at (i, o). -/
theorem slice_col_apply {n0 n1 : ℕ} (o : ℕ) (X : (⟨2, ![n0, n1]⟩ : Shape).Idx → α)
    (h : (⟨2, ![n0, n1]⟩ : Shape).Slices ![0, o] ⟨2, ![n0, 1]⟩) (i : Fin n0) (k : Fin n1) (hk : k.val = o) :
    extractStridedSlice ⟨2, ![n0, 1]⟩ ![0, o] X h (ix2 i (0 : Fin 1)) = X (ix2 i k) :=
  slice2_axis1_apply o X h i (0 : Fin 1) k (by show k.val = o + 0; omega)

/-- An f32 sum along the rows into the zero word, the accumulator's evidence the printed `0 = 0`, at row p. -/
theorem rowsum_f32_apply {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (p : Fin A) :
    multiReduction .add [1] ⟨1, ![A]⟩ src 0x00000000#32 h hφ hacc (ix1 p) = ∑ k : Fin B, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

end Cert.LibLayoutCols

end
-- ==== Proof.KOps.lean ====
/-
  The kernel's blocks as plain functions, and its operations read at coordinates on the extended reals.

  A block of 512 floats is a vector `Fin 512 → EReal`; a 512×512 or 512×16 block is a matrix indexed (row, column), the row
  being the coordinate a product contracts; row `p` of the 32×512 input block is the batch row the specification speaks
  of, and row `p` of the 32×512×16 state block its 512×16 state. Every pointwise operation reads lane by lane; a sum
  along the rows of a 32×512 value is row `p`'s sum over its 512 entries; a product of a 32×512 value with a 512×512 or
  512×16 one, into a zero accumulator, is at (p, q) the sum over k of left (p, k) · right (k, q).

  `kread` rewrites a goal with all of these until every vector is read at coordinates.
-/
import proofs.«170428_j80187039416644_1_alg».proof.Proof.Gen.KernelIdeal.Skeleton
import proofs.«170428_j80187039416644_1_alg».proof.Proof.Spec
import proofs.«170428_j80187039416644_1_alg».proof.Proof.LibMatRows
import proofs.«170428_j80187039416644_1_alg».proof.Proof.LibLayoutCols

noncomputable section

namespace Cert.KernelIdeal.Pay

open Cert.KernelIdeal Cert.KernelIdeal.Gen Idealize.ShloMosaic Idealize.ShloMosaic.ValueIdx Cert.LibLayoutCols Cert.LibMatRows
open scoped BigOperators

/-! ## The blocks as plain functions -/

def vec512 (v : FVec Ideal S512 .f32) : Spec.V512 := fun k => v (ix1 k)
def vec16 (v : FVec Ideal S16 .f32) : Spec.V16 := fun s => v (ix1 s)
def mat512 (v : FVec Ideal S512x512 .bf16) : Spec.M512 := fun k q => v (ix2 k q)
def mat16b (v : FVec Ideal S512x16 .bf16) : Spec.M16 := fun k s => v (ix2 k s)
def mat16 (v : FVec Ideal S512x16 .f32) : Spec.M16 := fun d s => v (ix2 d s)
/-- Row `p` of the input block. -/
def row (x0 : FVec Ideal S32x512 .f32) (p : Fin 32) : Spec.V512 := fun k => x0 (ix2 p k)
/-- Row `p` of the state block: a 512×16 state. -/
def srow (x1 : FVec Ideal S32x512x16 .f32) (p : Fin 32) : Spec.M16 := fun d s => x1 (ix3 p d s)
/-- The normalisation's scale and shift, from their blocks. -/
def kLN (x2 x3 : FVec Ideal S512 .f32) : Spec.LN := ⟨vec512 x2, vec512 x3⟩
/-- What the convolved activation depends on, from the blocks. -/
def kCW (x2 x3 : FVec Ideal S512 .f32) (x4 : FVec Ideal S512x512 .bf16) (x5 x12 : FVec Ideal S512 .f32) : Spec.CW :=
  ⟨kLN x2 x3, mat512 x4, vec512 x5, vec512 x12⟩

/-! ## Pointwise operations, lane by lane -/

section Pointwise
variable {s : Shape} {φ : FTy}

theorem exp_apply (a : FVec Ideal s φ) (i : s.Idx) : exp a i = Ideal.exp (a i) := rfl
theorem log1p_apply (a : FVec Ideal s φ) (i : s.Idx) : log1p a i = Ideal.log1p (a i) := rfl
theorem absf_apply (a : FVec Ideal s φ) (i : s.Idx) : absf a i = max (a i) (-(a i)) := rfl
theorem logistic_apply (a : FVec Ideal s φ) (i : s.Idx) : logistic a i = Ideal.logistic (a i) := rfl
theorem rsqrt_apply (a : FVec Ideal s φ) (i : s.Idx) : rsqrt a i = Ideal.rsqrt (a i) := rfl
theorem cmpfI_apply (p : CmpFPredicate) (a b : FVec Ideal s φ) (i : s.Idx) : cmpf p a b i = Ideal.cmp p (a i) (b i) := rfl
theorem ofBitsS (b : BitVec 32) : (Scalar.ofBits (F := Ideal) .f32 b : EReal) = Ideal.ofBits .f32 b := rfl

end Pointwise

/-! ## The row sum and the two products, over this kernel's shapes -/

theorem rowsum32 (src : FVec Ideal S32x512 .f32) (hφ : FKind.Formats .f32)
    (hacc : (0x00000000#32 : BitVec 32) = 0x00000000#32) (p : Fin 32) :
    multiReduction .add [1] S32 src 0x00000000#32 reduces_S32x512_S32 hφ hacc (ix1 p) = ∑ k : Fin 512, src (ix2 p k) :=
  rowsum_f32_apply src reduces_S32x512_S32 hφ hacc p

theorem mm512 (l : FVec Ideal S32x512 .bf16) (r : FVec Ideal S512x512 .bf16) (p : Fin 32) (q : Fin 512) :
    matmul dot_S32x512_S512x512_S32x512_1_0_0_1_n_n none l r (constant (F := Ideal) S32x512 .f32 0x00000000#32) (ix2 p q)
      = ∑ k : Fin 512, l (ix2 p k) * r (ix2 k q) :=
  matmul_plain_apply _ rfl none l r p q

theorem mm16 (l : FVec Ideal S32x512 .bf16) (r : FVec Ideal S512x16 .bf16) (p : Fin 32) (s : Fin 16) :
    matmul dot_S32x512_S512x16_S32x16_1_0_0_1_n_n none l r (constant (F := Ideal) S32x16 .f32 0x00000000#32) (ix2 p s)
      = ∑ k : Fin 512, l (ix2 p k) * r (ix2 k s) :=
  matmul_plain_apply _ rfl none l r p s

/-- Read every vector of the goal at coordinates: the pointwise operations lane by lane, the layout operations by their
    coordinate maps, the row sum and the products as sums. (Structure projections are left alone, so that the axis list of
    a row sum keeps its spelling.) -/
macro "kread" : tactic =>
  `(tactic| simp (config := { proj := false }) only [truncf_apply, addf_apply, mulf_apply, subf_apply, divf_apply, maximumf_apply,
      broadcast_apply, select_apply, cmpfI_apply, exp_apply, log1p_apply, absf_apply, logistic_apply, rsqrt_apply, ofBitsS,
      Ideal.ofBits_def,
      broadcastTo_a1_ab_apply, broadcastTo_1b_ab_apply, shapeCast_a_a1_apply, shapeCast_a1_a_apply, shapeCast_a_1a_apply,
      shapeCast_ab1_ab_apply, shapeCast_ab_ab1_apply, shapeCast_self, rowsum32, mm512, mm16])

end Cert.KernelIdeal.Pay

end
-- ==== Proof.KTerms.lean ====
/-
  Names for the vectors the kernel's body builds, as the terms the frame's description of the output blocks contains.

  From the input blocks come the convolved activation `cvV` (and its narrowed copy `cbV`), the step size `dlV`, the two
  32×16 values `bmV` and `cmV`, and the 512×16 matrix `avV` of decay rates. Slot `s` of the new state is `pieceV s`, a
  32×512×1 value computed from those and the slot's slab `LS` of the old state. The sixteen slots, each times its column of
  `cmV`, are added one after the other in eight stages `ch0 … ch7` (two slots a stage) onto a zero; the last slot is added
  inside `outV`, which gates the sum, sends it through the last matrix and adds the bias.
-/
import proofs.«170428_j80187039416644_1_alg».proof.Proof.KOps

noncomputable section

namespace Cert.KernelIdeal.Pay

open Cert.KernelIdeal Cert.KernelIdeal.Gen Idealize.ShloMosaic Idealize.ShloMosaic.ValueIdx

/-- One slab of the old state: the 32×512×1 value a slot's load reads. -/
abbrev Slab := FVec Ideal S32x512x1 .f32

section Shared
variable (x0 : FVec Ideal S32x512 .f32) (x2 x3 : FVec Ideal S512 .f32) (x4 : FVec Ideal S512x512 .bf16)
  (x5 x12 : FVec Ideal S512 .f32)

/-- The normalised rows, narrowed. -/
abbrev xnV : FVec Ideal S32x512 .bf16 := k0_pay2 (F := Ideal) x0 x2 x3
/-- The convolved activation. -/
abbrev cvV : FVec Ideal S32x512 .f32 := k0_pay3 (F := Ideal) x0 x2 x3 x4 x5 x12
/-- The convolved activation, narrowed. -/
abbrev cbV : FVec Ideal S32x512 .bf16 := k0_pay4 (F := Ideal) x0 x2 x3 x4 x5 x12

variable (x10 : FVec Ideal S512x512 .bf16) (x11 : FVec Ideal S512 .f32)

/-- The step size. -/
abbrev dlV : FVec Ideal S32x512 .f32 := k0_pay6 (F := Ideal) (cbV x0 x2 x3 x4 x5 x12) (k0_pay5 (F := Ideal) x10) x11

end Shared

/-- A 32×16 value: the convolved activation through a 512×16 matrix plus a bias (the first through `k0_pay7`, the second
    through `k0_pay8`: one text twice in the body). -/
abbrev bmV (x0 : FVec Ideal S32x512 .f32) (x2 x3 : FVec Ideal S512 .f32) (x4 : FVec Ideal S512x512 .bf16)
    (x5 x12 : FVec Ideal S512 .f32) (x14 : FVec Ideal S512x16 .bf16) (x15 : FVec Ideal S16 .f32) : FVec Ideal S32x16 .f32 :=
  k0_pay7 (F := Ideal) (cbV x0 x2 x3 x4 x5 x12) x14 x15

abbrev cmV (x0 : FVec Ideal S32x512 .f32) (x2 x3 : FVec Ideal S512 .f32) (x4 : FVec Ideal S512x512 .bf16)
    (x5 x12 : FVec Ideal S512 .f32) (x16 : FVec Ideal S512x16 .bf16) (x17 : FVec Ideal S16 .f32) : FVec Ideal S32x16 .f32 :=
  k0_pay8 (F := Ideal) (cbV x0 x2 x3 x4 x5 x12) x16 x17

/-- The decay rates. -/
abbrev avV (x13 : FVec Ideal S512x16 .f32) : FVec Ideal S512x16 .f32 := k0_pay9 (F := Ideal) x13

/-! ## The sixteen slots of the new state, over the shared vectors `cv dl bm av` and the slot's slab -/

section Pieces
variable (cv dl : FVec Ideal S32x512 .f32) (bm : FVec Ideal S32x16 .f32) (av : FVec Ideal S512x16 .f32) (LS : Slab)

/-- Slot 0 reads the decay factor `e0 = exp (dl · column 0 of av)` the body computed ahead. -/
abbrev piece0 (e0 : FVec Ideal S32x512 .f32) : Slab := k0_pay13 (F := Ideal) cv dl bm e0 LS
abbrev piece1 : Slab := k0_pay15 (F := Ideal) cv dl bm av LS
abbrev piece2 : Slab := k0_pay19 (F := Ideal) cv dl bm (k0_pay17 (F := Ideal) av) LS
abbrev piece3 : Slab := k0_pay22 (F := Ideal) cv dl bm av LS
abbrev piece4 : Slab := k0_pay25 (F := Ideal) cv dl bm av LS
abbrev piece5 : Slab := k0_pay29 (F := Ideal) (k0_pay28 (F := Ideal) cv dl bm av LS)
abbrev piece6 : Slab := k0_pay31 (F := Ideal) cv dl bm av LS
abbrev piece7 : Slab := k0_pay35 (F := Ideal) (k0_pay34 (F := Ideal) cv dl bm av LS)
abbrev piece8 : Slab := k0_pay37 (F := Ideal) cv dl bm av LS
abbrev piece9 : Slab := k0_pay43 (F := Ideal) cv dl (k0_pay39 (F := Ideal) bm) (k0_pay41 (F := Ideal) dl av LS)
abbrev piece10 : Slab := k0_pay45 (F := Ideal) cv dl bm av LS
abbrev piece11 : Slab := k0_pay51 (F := Ideal) cv dl (k0_pay47 (F := Ideal) dl av) (k0_pay48 (F := Ideal) bm) LS
abbrev piece12 : Slab := k0_pay53 (F := Ideal) cv dl bm av LS
abbrev piece13 : Slab := k0_pay59 (F := Ideal) cv dl (k0_pay55 (F := Ideal) dl av) (k0_pay56 (F := Ideal) bm) LS
abbrev piece14 : Slab := k0_pay61 (F := Ideal) cv dl bm av LS
abbrev piece15 : Slab := k0_pay65 (F := Ideal) cv dl bm (k0_pay63 (F := Ideal) dl av) LS

end Pieces

/-! ## The running sum of the slots against `cm`, two slots a stage, and the output -/

section Chain
variable (cv dl : FVec Ideal S32x512 .f32) (bm cm : FVec Ideal S32x16 .f32) (av : FVec Ideal S512x16 .f32)
  (L : Fin 16 → Slab)

/-- Slots 0 and 1 onto the zero; `e0` is slot 0's decay factor. -/
abbrev ch0 (e0 : FVec Ideal S32x512 .f32) : FVec Ideal S32x512 .f32 :=
  k0_pay16 (F := Ideal) cv dl bm cm av (k0_pay10 (F := Ideal)) e0 (L 0) (L 1)
/-- Slot 2. -/
abbrev ch1 (e0 : FVec Ideal S32x512 .f32) : FVec Ideal S32x512 .f32 :=
  k0_pay20 (F := Ideal) cv dl bm cm (ch0 cv dl bm cm av L e0) (k0_pay17 (F := Ideal) av) (L 2)
/-- Slots 3 and 4. -/
abbrev ch2 (e0 : FVec Ideal S32x512 .f32) : FVec Ideal S32x512 .f32 :=
  k0_pay26 (F := Ideal) cv dl bm cm av (ch1 cv dl bm cm av L e0) (k0_pay21 (F := Ideal) cv dl bm av (L 3))
    (k0_pay23 (F := Ideal) cm) (L 4)
/-- Slots 5 and 6. -/
abbrev ch3 (e0 : FVec Ideal S32x512 .f32) : FVec Ideal S32x512 .f32 :=
  k0_pay32 (F := Ideal) cv dl bm cm av (ch2 cv dl bm cm av L e0) (k0_pay27 (F := Ideal) cm)
    (k0_pay28 (F := Ideal) cv dl bm av (L 5)) (L 6)
/-- Slots 7 and 8. -/
abbrev ch4 (e0 : FVec Ideal S32x512 .f32) : FVec Ideal S32x512 .f32 :=
  k0_pay38 (F := Ideal) cv dl bm cm av (ch3 cv dl bm cm av L e0) (k0_pay33 (F := Ideal) cm)
    (k0_pay34 (F := Ideal) cv dl bm av (L 7)) (L 8)
/-- Slots 9 and 10. -/
abbrev ch5 (e0 : FVec Ideal S32x512 .f32) : FVec Ideal S32x512 .f32 :=
  k0_pay46 (F := Ideal) cv dl bm cm av (ch4 cv dl bm cm av L e0) (k0_pay39 (F := Ideal) bm) (k0_pay40 (F := Ideal) cm)
    (k0_pay41 (F := Ideal) dl av (L 9)) (L 10)
/-- Slots 11 and 12. -/
abbrev ch6 (e0 : FVec Ideal S32x512 .f32) : FVec Ideal S32x512 .f32 :=
  k0_pay54 (F := Ideal) cv dl bm cm av (ch5 cv dl bm cm av L e0) (k0_pay47 (F := Ideal) dl av) (k0_pay48 (F := Ideal) bm)
    (k0_pay49 (F := Ideal) cm) (L 11) (L 12)
/-- Slots 13 and 14. -/
abbrev ch7 (e0 : FVec Ideal S32x512 .f32) : FVec Ideal S32x512 .f32 :=
  k0_pay62 (F := Ideal) cv dl bm cm av (ch6 cv dl bm cm av L e0) (k0_pay55 (F := Ideal) dl av) (k0_pay56 (F := Ideal) bm)
    (k0_pay57 (F := Ideal) cm) (L 13) (L 14)

/-- Slot 15 added, the sum gated by `xn` through `x6`, `x7`, sent through `x8`; then the bias `x9`. -/
abbrev outV (xn : FVec Ideal S32x512 .bf16) (e0 : FVec Ideal S32x512 .f32) (x6 : FVec Ideal S512x512 .bf16)
    (x7 : FVec Ideal S512 .f32) (x8 : FVec Ideal S512x512 .bf16) (x9 : FVec Ideal S512 .f32) : FVec Ideal S32x512 .f32 :=
  k0_pay1 (F := Ideal)
    (k0_pay66 (F := Ideal) xn cv dl bm cm (ch7 cv dl bm cm av L e0) (k0_pay63 (F := Ideal) dl av) (L 15) x6 x7 x8)
    (k0_pay67 (F := Ideal) x9)

end Chain

end Cert.KernelIdeal.Pay

end
-- ==== Proof.KPre.lean ====
/-
  The vectors every slot shares, read at coordinates: each is the specification's function of the batch row.

  At (p, q) the normalised block is `normed` of row `p`; through the first matrix, its bias and the per-channel factor into
  `z · logistic z` it is `conv`; the second matrix and `softplus` (in the kernel's spelling, whose guard never fires) give
  `delta`; the two 512×16 matrices give the two 16-vectors; and the decay rates are `-exp alog`, the kernel writing `0 - e`.
-/
import proofs.«170428_j80187039416644_1_alg».proof.Proof.KTerms

noncomputable section

namespace Cert.KernelIdeal.Pay

open Cert.KernelIdeal Cert.KernelIdeal.Gen Idealize.ShloMosaic Idealize.ShloMosaic.ValueIdx Cert.LibLayoutCols Cert.LibMatRows
open scoped BigOperators

variable (x0 : FVec Ideal S32x512 .f32) (x2 x3 : FVec Ideal S512 .f32) (x4 : FVec Ideal S512x512 .bf16)
  (x5 x12 : FVec Ideal S512 .f32)

/-- The normalised block at (p, q). -/
theorem xn_apply (p : Fin 32) (q : Fin 512) :
    k0_pay2 (F := Ideal) x0 x2 x3 (ix2 p q) = Spec.normed (kLN x2 x3) (row x0 p) q := by
  unfold k0_pay2
  kread
  rfl

/-- The convolved activation at (p, q). -/
theorem conv_apply (p : Fin 32) (q : Fin 512) :
    k0_pay3 (F := Ideal) x0 x2 x3 x4 x5 x12 (ix2 p q) = Spec.conv (kCW x2 x3 x4 x5 x12) (row x0 p) q := by
  unfold k0_pay3
  kread
  simp only [xn_apply]
  rfl

/-- Its narrowed copy holds the same extended reals. -/
theorem convb_apply (p : Fin 32) (q : Fin 512) :
    k0_pay4 (F := Ideal) x0 x2 x3 x4 x5 x12 (ix2 p q) = Spec.conv (kCW x2 x3 x4 x5 x12) (row x0 p) q := by
  unfold k0_pay4
  kread
  exact conv_apply x0 x2 x3 x4 x5 x12 p q

/-- The step size at (p, q): the second matrix, then `softplus`. -/
theorem delta_apply (x10 : FVec Ideal S512x512 .bf16) (x11 : FVec Ideal S512 .f32) (p : Fin 32) (q : Fin 512) :
    dlV x0 x2 x3 x4 x5 x12 x10 x11 (ix2 p q)
      = Spec.delta (kCW x2 x3 x4 x5 x12) (mat512 x10) (vec512 x11) (row x0 p) q := by
  show k0_pay6 (F := Ideal) (k0_pay4 (F := Ideal) x0 x2 x3 x4 x5 x12) (k0_pay5 (F := Ideal) x10) x11 (ix2 p q) = _
  unfold k0_pay6 k0_pay5
  kread
  simp only [convb_apply]
  rw [Spec.softplus_kernel]
  rfl

/-- The first 16-vector at (p, s). -/
theorem bm_apply (x14 : FVec Ideal S512x16 .bf16) (x15 : FVec Ideal S16 .f32) (p : Fin 32) (s : Fin 16) :
    bmV x0 x2 x3 x4 x5 x12 x14 x15 (ix2 p s)
      = Spec.proj16 (kCW x2 x3 x4 x5 x12) (mat16b x14) (vec16 x15) (row x0 p) s := by
  show k0_pay7 (F := Ideal) (k0_pay4 (F := Ideal) x0 x2 x3 x4 x5 x12) x14 x15 (ix2 p s) = _
  unfold k0_pay7
  kread
  simp only [convb_apply]
  rfl

/-- The second 16-vector at (p, s). -/
theorem cm_apply (x16 : FVec Ideal S512x16 .bf16) (x17 : FVec Ideal S16 .f32) (p : Fin 32) (s : Fin 16) :
    cmV x0 x2 x3 x4 x5 x12 x16 x17 (ix2 p s)
      = Spec.proj16 (kCW x2 x3 x4 x5 x12) (mat16b x16) (vec16 x17) (row x0 p) s := by
  show k0_pay8 (F := Ideal) (k0_pay4 (F := Ideal) x0 x2 x3 x4 x5 x12) x16 x17 (ix2 p s) = _
  unfold k0_pay8
  kread
  simp only [convb_apply]
  rfl

/-- The decay rates at (d, s): the kernel's `0 - exp alog`. -/
theorem av_apply (x13 : FVec Ideal S512x16 .f32) (d : Fin 512) (s : Fin 16) :
    avV x13 (ix2 d s) = Spec.amat (mat16 x13) d s := by
  show k0_pay9 (F := Ideal) x13 (ix2 d s) = _
  unfold k0_pay9
  kread
  exact Spec.zero_sub_eq _

end Cert.KernelIdeal.Pay

end
-- ==== Proof.KState.lean ====
/-
  Slots 0 to 7 of the new state, read at (p, q, 0), over the shared vectors as variables.

  Whatever the body's cut into named values, slot `s` is the slab's entry times `exp (step · rate)` plus
  `step · b · x`, with the rate read from column `s` of the 512×16 matrix and `b` from column `s` of the 32×16 one.
-/
import proofs.«170428_j80187039416644_1_alg».proof.Proof.KTerms

noncomputable section

namespace Cert.KernelIdeal.Pay

open Cert.KernelIdeal Cert.KernelIdeal.Gen Idealize.ShloMosaic Idealize.ShloMosaic.ValueIdx Cert.LibLayoutCols Cert.LibMatRows
open scoped BigOperators

variable (cv dl : FVec Ideal S32x512 .f32) (bm : FVec Ideal S32x16 .f32) (av : FVec Ideal S512x16 .f32) (LS : Slab)

/-- Slot 0's decay factor, computed ahead of the slots: `exp (step · rate)` at column 0. -/
theorem e0_apply (v40 : FVec Ideal S32x512 .bf16) (v42 : FVec Ideal S512x512 .bf16) (v44 : FVec Ideal S512 .f32)
    (v76 : FVec Ideal S512x16 .f32) (p : Fin 32) (q : Fin 512) :
    k0_pay11 (F := Ideal) v40 v42 v44 v76 (ix2 p q)
      = Ideal.exp (k0_pay6 (F := Ideal) v40 v42 v44 (ix2 p q) * k0_pay9 (F := Ideal) v76 (ix2 q 0)) := by
  unfold k0_pay11
  kread
  simp only [slice_col_apply 0 _ _ _ (0 : Fin 16) rfl]

/-- Slot 0, its decay factor given. -/
theorem piece0_apply (e0 : FVec Ideal S32x512 .f32) (p : Fin 32) (q : Fin 512) :
    piece0 cv dl bm LS e0 (ix3 p q 0) = LS (ix3 p q 0) * e0 (ix2 p q) + dl (ix2 p q) * bm (ix2 p 0) * cv (ix2 p q) := by
  show k0_pay13 (F := Ideal) cv dl bm e0 LS (ix3 p q 0) = _
  unfold k0_pay13 k0_pay12
  kread
  simp only [slice_col_apply 0 _ _ _ (0 : Fin 16) rfl]

theorem piece1_apply (p : Fin 32) (q : Fin 512) :
    piece1 cv dl bm av LS (ix3 p q 0) = Spec.step (LS (ix3 p q 0)) (dl (ix2 p q)) (av (ix2 q 1)) (bm (ix2 p 1)) (cv (ix2 p q)) := by
  show k0_pay15 (F := Ideal) cv dl bm av LS (ix3 p q 0) = _
  unfold k0_pay15 k0_pay14
  kread
  simp only [slice_col_apply 1 _ _ _ (1 : Fin 16) rfl]
  rfl

theorem piece2_apply (p : Fin 32) (q : Fin 512) :
    piece2 cv dl bm av LS (ix3 p q 0) = Spec.step (LS (ix3 p q 0)) (dl (ix2 p q)) (av (ix2 q 2)) (bm (ix2 p 2)) (cv (ix2 p q)) := by
  show k0_pay19 (F := Ideal) cv dl bm (k0_pay17 (F := Ideal) av) LS (ix3 p q 0) = _
  unfold k0_pay19 k0_pay18 k0_pay17
  kread
  simp only [slice_col_apply 2 _ _ _ (2 : Fin 16) rfl]
  rfl

theorem piece3_apply (p : Fin 32) (q : Fin 512) :
    piece3 cv dl bm av LS (ix3 p q 0) = Spec.step (LS (ix3 p q 0)) (dl (ix2 p q)) (av (ix2 q 3)) (bm (ix2 p 3)) (cv (ix2 p q)) := by
  show k0_pay22 (F := Ideal) cv dl bm av LS (ix3 p q 0) = _
  unfold k0_pay22 k0_pay21
  kread
  simp only [slice_col_apply 3 _ _ _ (3 : Fin 16) rfl]
  rfl

theorem piece4_apply (p : Fin 32) (q : Fin 512) :
    piece4 cv dl bm av LS (ix3 p q 0) = Spec.step (LS (ix3 p q 0)) (dl (ix2 p q)) (av (ix2 q 4)) (bm (ix2 p 4)) (cv (ix2 p q)) := by
  show k0_pay25 (F := Ideal) cv dl bm av LS (ix3 p q 0) = _
  unfold k0_pay25 k0_pay24
  kread
  simp only [slice_col_apply 4 _ _ _ (4 : Fin 16) rfl]
  rfl

theorem piece5_apply (p : Fin 32) (q : Fin 512) :
    piece5 cv dl bm av LS (ix3 p q 0) = Spec.step (LS (ix3 p q 0)) (dl (ix2 p q)) (av (ix2 q 5)) (bm (ix2 p 5)) (cv (ix2 p q)) := by
  show k0_pay29 (F := Ideal) (k0_pay28 (F := Ideal) cv dl bm av LS) (ix3 p q 0) = _
  unfold k0_pay29 k0_pay28
  kread
  simp only [slice_col_apply 5 _ _ _ (5 : Fin 16) rfl]
  rfl

theorem piece6_apply (p : Fin 32) (q : Fin 512) :
    piece6 cv dl bm av LS (ix3 p q 0) = Spec.step (LS (ix3 p q 0)) (dl (ix2 p q)) (av (ix2 q 6)) (bm (ix2 p 6)) (cv (ix2 p q)) := by
  show k0_pay31 (F := Ideal) cv dl bm av LS (ix3 p q 0) = _
  unfold k0_pay31 k0_pay30
  kread
  simp only [slice_col_apply 6 _ _ _ (6 : Fin 16) rfl]
  rfl

theorem piece7_apply (p : Fin 32) (q : Fin 512) :
    piece7 cv dl bm av LS (ix3 p q 0) = Spec.step (LS (ix3 p q 0)) (dl (ix2 p q)) (av (ix2 q 7)) (bm (ix2 p 7)) (cv (ix2 p q)) := by
  show k0_pay35 (F := Ideal) (k0_pay34 (F := Ideal) cv dl bm av LS) (ix3 p q 0) = _
  unfold k0_pay35 k0_pay34
  kread
  simp only [slice_col_apply 7 _ _ _ (7 : Fin 16) rfl]
  rfl

end Cert.KernelIdeal.Pay

end
-- ==== Proof.KState2.lean ====
/-
  Slots 8 to 15 of the new state, read at (p, q, 0), over the shared vectors as variables.

  Whatever the body's cut into named values, slot `s` is the slab's entry times `exp (step · rate)` plus
  `step · b · x`, with the rate read from column `s` of the 512×16 matrix and `b` from column `s` of the 32×16 one.
-/
import proofs.«170428_j80187039416644_1_alg».proof.Proof.KTerms

noncomputable section

namespace Cert.KernelIdeal.Pay

open Cert.KernelIdeal Cert.KernelIdeal.Gen Idealize.ShloMosaic Idealize.ShloMosaic.ValueIdx Cert.LibLayoutCols Cert.LibMatRows
open scoped BigOperators

variable (cv dl : FVec Ideal S32x512 .f32) (bm : FVec Ideal S32x16 .f32) (av : FVec Ideal S512x16 .f32) (LS : Slab)

theorem piece8_apply (p : Fin 32) (q : Fin 512) :
    piece8 cv dl bm av LS (ix3 p q 0) = Spec.step (LS (ix3 p q 0)) (dl (ix2 p q)) (av (ix2 q 8)) (bm (ix2 p 8)) (cv (ix2 p q)) := by
  unfold piece8 k0_pay37 k0_pay36
  kread
  simp only [slice_col_apply 8 _ _ _ (8 : Fin 16) rfl]
  rfl

theorem piece9_apply (p : Fin 32) (q : Fin 512) :
    piece9 cv dl bm av LS (ix3 p q 0) = Spec.step (LS (ix3 p q 0)) (dl (ix2 p q)) (av (ix2 q 9)) (bm (ix2 p 9)) (cv (ix2 p q)) := by
  unfold piece9 k0_pay43 k0_pay42 k0_pay39 k0_pay41
  kread
  simp only [slice_col_apply 9 _ _ _ (9 : Fin 16) rfl]
  rfl

theorem piece10_apply (p : Fin 32) (q : Fin 512) :
    piece10 cv dl bm av LS (ix3 p q 0) = Spec.step (LS (ix3 p q 0)) (dl (ix2 p q)) (av (ix2 q 10)) (bm (ix2 p 10)) (cv (ix2 p q)) := by
  unfold piece10 k0_pay45 k0_pay44
  kread
  simp only [slice_col_apply 10 _ _ _ (10 : Fin 16) rfl]
  rfl

theorem piece11_apply (p : Fin 32) (q : Fin 512) :
    piece11 cv dl bm av LS (ix3 p q 0) = Spec.step (LS (ix3 p q 0)) (dl (ix2 p q)) (av (ix2 q 11)) (bm (ix2 p 11)) (cv (ix2 p q)) := by
  unfold piece11 k0_pay51 k0_pay50 k0_pay47 k0_pay48
  kread
  simp only [slice_col_apply 11 _ _ _ (11 : Fin 16) rfl]
  rfl

theorem piece12_apply (p : Fin 32) (q : Fin 512) :
    piece12 cv dl bm av LS (ix3 p q 0) = Spec.step (LS (ix3 p q 0)) (dl (ix2 p q)) (av (ix2 q 12)) (bm (ix2 p 12)) (cv (ix2 p q)) := by
  unfold piece12 k0_pay53 k0_pay52
  kread
  simp only [slice_col_apply 12 _ _ _ (12 : Fin 16) rfl]
  rfl

theorem piece13_apply (p : Fin 32) (q : Fin 512) :
    piece13 cv dl bm av LS (ix3 p q 0) = Spec.step (LS (ix3 p q 0)) (dl (ix2 p q)) (av (ix2 q 13)) (bm (ix2 p 13)) (cv (ix2 p q)) := by
  unfold piece13 k0_pay59 k0_pay58 k0_pay55 k0_pay56
  kread
  simp only [slice_col_apply 13 _ _ _ (13 : Fin 16) rfl]
  rfl

theorem piece14_apply (p : Fin 32) (q : Fin 512) :
    piece14 cv dl bm av LS (ix3 p q 0) = Spec.step (LS (ix3 p q 0)) (dl (ix2 p q)) (av (ix2 q 14)) (bm (ix2 p 14)) (cv (ix2 p q)) := by
  unfold piece14 k0_pay61 k0_pay60
  kread
  simp only [slice_col_apply 14 _ _ _ (14 : Fin 16) rfl]
  rfl

theorem piece15_apply (p : Fin 32) (q : Fin 512) :
    piece15 cv dl bm av LS (ix3 p q 0) = Spec.step (LS (ix3 p q 0)) (dl (ix2 p q)) (av (ix2 q 15)) (bm (ix2 p 15)) (cv (ix2 p q)) := by
  unfold piece15 k0_pay65 k0_pay64 k0_pay63
  kread
  simp only [slice_col_apply 15 _ _ _ (15 : Fin 16) rfl]
  rfl

end Cert.KernelIdeal.Pay

end
-- ==== Proof.KOut.lean ====
/-
  The output block, read at (p, q), over the shared vectors as variables.

  The sixteen slots of the new state, each times its column of the second 32×16 value, are added one after the other
  onto a zero: their sum over the slots. That sum, at channel `d`, times `z · logistic z` of the normalised row through the
  third matrix, goes through the last matrix and gets its bias.
-/
import proofs.«170428_j80187039416644_1_alg».proof.Proof.KTerms

noncomputable section

namespace Cert.KernelIdeal.Pay

open Cert.KernelIdeal Cert.KernelIdeal.Gen Idealize.ShloMosaic Idealize.ShloMosaic.ValueIdx Cert.LibLayoutCols Cert.LibMatRows
open scoped BigOperators

/-! ## One slot of the new state at (p, d) -/

section Slots
variable (cv dl : FVec Ideal S32x512 .f32) (bm : FVec Ideal S32x16 .f32) (av : FVec Ideal S512x16 .f32) (LS : Slab)

private theorem s0_apply (e0 : FVec Ideal S32x512 .f32)
    (he0 : ∀ (p : Fin 32) (d : Fin 512), e0 (ix2 p d) = Ideal.exp (dl (ix2 p d) * av (ix2 d 0)))
    (p : Fin 32) (d : Fin 512) :
    k0_pay12 (F := Ideal) cv dl bm e0 LS (ix2 p d) = Spec.step (LS (ix3 p d 0)) (dl (ix2 p d)) (av (ix2 d 0)) (bm (ix2 p 0)) (cv (ix2 p d)) := by
  unfold k0_pay12
  kread
  simp only [slice_col_apply 0 _ _ _ (0 : Fin 16) rfl, he0]
  rfl

private theorem s1_apply (p : Fin 32) (d : Fin 512) :
    k0_pay14 (F := Ideal) cv dl bm av LS (ix2 p d) = Spec.step (LS (ix3 p d 0)) (dl (ix2 p d)) (av (ix2 d 1)) (bm (ix2 p 1)) (cv (ix2 p d)) := by
  unfold k0_pay14
  kread
  simp only [slice_col_apply 1 _ _ _ (1 : Fin 16) rfl]
  rfl

private theorem s2_apply (p : Fin 32) (d : Fin 512) :
    k0_pay18 (F := Ideal) cv dl bm (k0_pay17 (F := Ideal) av) LS (ix2 p d) = Spec.step (LS (ix3 p d 0)) (dl (ix2 p d)) (av (ix2 d 2)) (bm (ix2 p 2)) (cv (ix2 p d)) := by
  unfold k0_pay18 k0_pay17
  kread
  simp only [slice_col_apply 2 _ _ _ (2 : Fin 16) rfl]
  rfl

private theorem s3_apply (p : Fin 32) (d : Fin 512) :
    k0_pay21 (F := Ideal) cv dl bm av LS (ix2 p d) = Spec.step (LS (ix3 p d 0)) (dl (ix2 p d)) (av (ix2 d 3)) (bm (ix2 p 3)) (cv (ix2 p d)) := by
  unfold k0_pay21
  kread
  simp only [slice_col_apply 3 _ _ _ (3 : Fin 16) rfl]
  rfl

private theorem s4_apply (p : Fin 32) (d : Fin 512) :
    k0_pay24 (F := Ideal) cv dl bm av LS (ix2 p d) = Spec.step (LS (ix3 p d 0)) (dl (ix2 p d)) (av (ix2 d 4)) (bm (ix2 p 4)) (cv (ix2 p d)) := by
  unfold k0_pay24
  kread
  simp only [slice_col_apply 4 _ _ _ (4 : Fin 16) rfl]
  rfl

private theorem s5_apply (p : Fin 32) (d : Fin 512) :
    k0_pay28 (F := Ideal) cv dl bm av LS (ix2 p d) = Spec.step (LS (ix3 p d 0)) (dl (ix2 p d)) (av (ix2 d 5)) (bm (ix2 p 5)) (cv (ix2 p d)) := by
  unfold k0_pay28
  kread
  simp only [slice_col_apply 5 _ _ _ (5 : Fin 16) rfl]
  rfl

private theorem s6_apply (p : Fin 32) (d : Fin 512) :
    k0_pay30 (F := Ideal) cv dl bm av LS (ix2 p d) = Spec.step (LS (ix3 p d 0)) (dl (ix2 p d)) (av (ix2 d 6)) (bm (ix2 p 6)) (cv (ix2 p d)) := by
  unfold k0_pay30
  kread
  simp only [slice_col_apply 6 _ _ _ (6 : Fin 16) rfl]
  rfl

private theorem s7_apply (p : Fin 32) (d : Fin 512) :
    k0_pay34 (F := Ideal) cv dl bm av LS (ix2 p d) = Spec.step (LS (ix3 p d 0)) (dl (ix2 p d)) (av (ix2 d 7)) (bm (ix2 p 7)) (cv (ix2 p d)) := by
  unfold k0_pay34
  kread
  simp only [slice_col_apply 7 _ _ _ (7 : Fin 16) rfl]
  rfl

private theorem s8_apply (p : Fin 32) (d : Fin 512) :
    k0_pay36 (F := Ideal) cv dl bm av LS (ix2 p d) = Spec.step (LS (ix3 p d 0)) (dl (ix2 p d)) (av (ix2 d 8)) (bm (ix2 p 8)) (cv (ix2 p d)) := by
  unfold k0_pay36
  kread
  simp only [slice_col_apply 8 _ _ _ (8 : Fin 16) rfl]
  rfl

private theorem s9_apply (p : Fin 32) (d : Fin 512) :
    k0_pay42 (F := Ideal) cv dl (k0_pay39 (F := Ideal) bm) (k0_pay41 (F := Ideal) dl av LS) (ix2 p d) = Spec.step (LS (ix3 p d 0)) (dl (ix2 p d)) (av (ix2 d 9)) (bm (ix2 p 9)) (cv (ix2 p d)) := by
  unfold k0_pay42 k0_pay39 k0_pay41
  kread
  simp only [slice_col_apply 9 _ _ _ (9 : Fin 16) rfl]
  rfl

private theorem s10_apply (p : Fin 32) (d : Fin 512) :
    k0_pay44 (F := Ideal) cv dl bm av LS (ix2 p d) = Spec.step (LS (ix3 p d 0)) (dl (ix2 p d)) (av (ix2 d 10)) (bm (ix2 p 10)) (cv (ix2 p d)) := by
  unfold k0_pay44
  kread
  simp only [slice_col_apply 10 _ _ _ (10 : Fin 16) rfl]
  rfl

private theorem s11_apply (p : Fin 32) (d : Fin 512) :
    k0_pay50 (F := Ideal) cv dl (k0_pay47 (F := Ideal) dl av) (k0_pay48 (F := Ideal) bm) LS (ix2 p d) = Spec.step (LS (ix3 p d 0)) (dl (ix2 p d)) (av (ix2 d 11)) (bm (ix2 p 11)) (cv (ix2 p d)) := by
  unfold k0_pay50 k0_pay47 k0_pay48
  kread
  simp only [slice_col_apply 11 _ _ _ (11 : Fin 16) rfl]
  rfl

private theorem s12_apply (p : Fin 32) (d : Fin 512) :
    k0_pay52 (F := Ideal) cv dl bm av LS (ix2 p d) = Spec.step (LS (ix3 p d 0)) (dl (ix2 p d)) (av (ix2 d 12)) (bm (ix2 p 12)) (cv (ix2 p d)) := by
  unfold k0_pay52
  kread
  simp only [slice_col_apply 12 _ _ _ (12 : Fin 16) rfl]
  rfl

private theorem s13_apply (p : Fin 32) (d : Fin 512) :
    k0_pay58 (F := Ideal) cv dl (k0_pay55 (F := Ideal) dl av) (k0_pay56 (F := Ideal) bm) LS (ix2 p d) = Spec.step (LS (ix3 p d 0)) (dl (ix2 p d)) (av (ix2 d 13)) (bm (ix2 p 13)) (cv (ix2 p d)) := by
  unfold k0_pay58 k0_pay55 k0_pay56
  kread
  simp only [slice_col_apply 13 _ _ _ (13 : Fin 16) rfl]
  rfl

private theorem s14_apply (p : Fin 32) (d : Fin 512) :
    k0_pay60 (F := Ideal) cv dl bm av LS (ix2 p d) = Spec.step (LS (ix3 p d 0)) (dl (ix2 p d)) (av (ix2 d 14)) (bm (ix2 p 14)) (cv (ix2 p d)) := by
  unfold k0_pay60
  kread
  simp only [slice_col_apply 14 _ _ _ (14 : Fin 16) rfl]
  rfl

private theorem s15_apply (p : Fin 32) (d : Fin 512) :
    k0_pay64 (F := Ideal) cv dl bm (k0_pay63 (F := Ideal) dl av) LS (ix2 p d) = Spec.step (LS (ix3 p d 0)) (dl (ix2 p d)) (av (ix2 d 15)) (bm (ix2 p 15)) (cv (ix2 p d)) := by
  unfold k0_pay64 k0_pay63
  kread
  simp only [slice_col_apply 15 _ _ _ (15 : Fin 16) rfl]
  rfl

end Slots

/-! ## The running sum at (p, d) -/

section Chain
variable (cv dl : FVec Ideal S32x512 .f32) (bm cm : FVec Ideal S32x16 .f32) (av : FVec Ideal S512x16 .f32)
  (L : Fin 16 → Slab)

/-- Slot `s` of channel `d`'s new state times entry `s` of the second 16-vector. -/
private abbrev tm (p : Fin 32) (d : Fin 512) (s : Fin 16) : EReal :=
  Spec.step (L s (ix3 p d 0)) (dl (ix2 p d)) (av (ix2 d s)) (bm (ix2 p s)) (cv (ix2 p d)) * cm (ix2 p s)

variable (e0 : FVec Ideal S32x512 .f32)
  (he0 : ∀ (p : Fin 32) (d : Fin 512), e0 (ix2 p d) = Ideal.exp (dl (ix2 p d) * av (ix2 d 0)))
include he0

private theorem c0_apply (p : Fin 32) (d : Fin 512) :
    ch0 cv dl bm cm av L e0 (ix2 p d) = Spec.Z + tm cv dl bm cm av L p d 0 + tm cv dl bm cm av L p d 1 := by
  unfold ch0 k0_pay16 k0_pay10
  kread
  simp only [slice_col_apply 0 _ _ _ (0 : Fin 16) rfl, slice_col_apply 1 _ _ _ (1 : Fin 16) rfl, s0_apply cv dl bm av _ e0 he0, s1_apply]

private theorem c1_apply (p : Fin 32) (d : Fin 512) :
    ch1 cv dl bm cm av L e0 (ix2 p d) = Spec.Z + tm cv dl bm cm av L p d 0 + tm cv dl bm cm av L p d 1 + tm cv dl bm cm av L p d 2 := by
  unfold ch1 k0_pay20
  kread
  simp only [slice_col_apply 2 _ _ _ (2 : Fin 16) rfl, s2_apply, c0_apply cv dl bm cm av L e0 he0]

private theorem c2_apply (p : Fin 32) (d : Fin 512) :
    ch2 cv dl bm cm av L e0 (ix2 p d) = Spec.Z + tm cv dl bm cm av L p d 0 + tm cv dl bm cm av L p d 1 + tm cv dl bm cm av L p d 2 + tm cv dl bm cm av L p d 3 + tm cv dl bm cm av L p d 4 := by
  unfold ch2 k0_pay26 k0_pay23
  kread
  simp only [slice_col_apply 3 _ _ _ (3 : Fin 16) rfl, slice_col_apply 4 _ _ _ (4 : Fin 16) rfl, s3_apply, s4_apply, c1_apply cv dl bm cm av L e0 he0]

private theorem c3_apply (p : Fin 32) (d : Fin 512) :
    ch3 cv dl bm cm av L e0 (ix2 p d) = Spec.Z + tm cv dl bm cm av L p d 0 + tm cv dl bm cm av L p d 1 + tm cv dl bm cm av L p d 2 + tm cv dl bm cm av L p d 3 + tm cv dl bm cm av L p d 4 + tm cv dl bm cm av L p d 5 + tm cv dl bm cm av L p d 6 := by
  unfold ch3 k0_pay32 k0_pay27
  kread
  simp only [slice_col_apply 5 _ _ _ (5 : Fin 16) rfl, slice_col_apply 6 _ _ _ (6 : Fin 16) rfl, s5_apply, s6_apply, c2_apply cv dl bm cm av L e0 he0]

private theorem c4_apply (p : Fin 32) (d : Fin 512) :
    ch4 cv dl bm cm av L e0 (ix2 p d) = Spec.Z + tm cv dl bm cm av L p d 0 + tm cv dl bm cm av L p d 1 + tm cv dl bm cm av L p d 2 + tm cv dl bm cm av L p d 3 + tm cv dl bm cm av L p d 4 + tm cv dl bm cm av L p d 5 + tm cv dl bm cm av L p d 6 + tm cv dl bm cm av L p d 7 + tm cv dl bm cm av L p d 8 := by
  unfold ch4 k0_pay38 k0_pay33
  kread
  simp only [slice_col_apply 7 _ _ _ (7 : Fin 16) rfl, slice_col_apply 8 _ _ _ (8 : Fin 16) rfl, s7_apply, s8_apply, c3_apply cv dl bm cm av L e0 he0]

private theorem c5_apply (p : Fin 32) (d : Fin 512) :
    ch5 cv dl bm cm av L e0 (ix2 p d) = Spec.Z + tm cv dl bm cm av L p d 0 + tm cv dl bm cm av L p d 1 + tm cv dl bm cm av L p d 2 + tm cv dl bm cm av L p d 3 + tm cv dl bm cm av L p d 4 + tm cv dl bm cm av L p d 5 + tm cv dl bm cm av L p d 6 + tm cv dl bm cm av L p d 7 + tm cv dl bm cm av L p d 8 + tm cv dl bm cm av L p d 9 + tm cv dl bm cm av L p d 10 := by
  unfold ch5 k0_pay46 k0_pay40
  kread
  simp only [slice_col_apply 9 _ _ _ (9 : Fin 16) rfl, slice_col_apply 10 _ _ _ (10 : Fin 16) rfl, s9_apply, s10_apply, c4_apply cv dl bm cm av L e0 he0]

private theorem c6_apply (p : Fin 32) (d : Fin 512) :
    ch6 cv dl bm cm av L e0 (ix2 p d) = Spec.Z + tm cv dl bm cm av L p d 0 + tm cv dl bm cm av L p d 1 + tm cv dl bm cm av L p d 2 + tm cv dl bm cm av L p d 3 + tm cv dl bm cm av L p d 4 + tm cv dl bm cm av L p d 5 + tm cv dl bm cm av L p d 6 + tm cv dl bm cm av L p d 7 + tm cv dl bm cm av L p d 8 + tm cv dl bm cm av L p d 9 + tm cv dl bm cm av L p d 10 + tm cv dl bm cm av L p d 11 + tm cv dl bm cm av L p d 12 := by
  unfold ch6 k0_pay54 k0_pay49
  kread
  simp only [slice_col_apply 11 _ _ _ (11 : Fin 16) rfl, slice_col_apply 12 _ _ _ (12 : Fin 16) rfl, s11_apply, s12_apply, c5_apply cv dl bm cm av L e0 he0]

private theorem c7_apply (p : Fin 32) (d : Fin 512) :
    ch7 cv dl bm cm av L e0 (ix2 p d) = Spec.Z + tm cv dl bm cm av L p d 0 + tm cv dl bm cm av L p d 1 + tm cv dl bm cm av L p d 2 + tm cv dl bm cm av L p d 3 + tm cv dl bm cm av L p d 4 + tm cv dl bm cm av L p d 5 + tm cv dl bm cm av L p d 6 + tm cv dl bm cm av L p d 7 + tm cv dl bm cm av L p d 8 + tm cv dl bm cm av L p d 9 + tm cv dl bm cm av L p d 10 + tm cv dl bm cm av L p d 11 + tm cv dl bm cm av L p d 12 + tm cv dl bm cm av L p d 13 + tm cv dl bm cm av L p d 14 := by
  unfold ch7 k0_pay62 k0_pay57
  kread
  simp only [slice_col_apply 13 _ _ _ (13 : Fin 16) rfl, slice_col_apply 14 _ _ _ (14 : Fin 16) rfl, s13_apply, s14_apply, c6_apply cv dl bm cm av L e0 he0]

/-- All sixteen slots: the running sum plus slot 15 is the sum over the slots. -/
private theorem sum_apply (p : Fin 32) (d : Fin 512) :
    ch7 cv dl bm cm av L e0 (ix2 p d)
        + k0_pay64 (F := Ideal) cv dl bm (k0_pay63 (F := Ideal) dl av) (L 15) (ix2 p d) * cm (ix2 p 15)
      = ∑ s : Fin 16, Spec.step (L s (ix3 p d 0)) (dl (ix2 p d)) (av (ix2 d s)) (bm (ix2 p s)) (cv (ix2 p d)) * cm (ix2 p s) := by
  rw [c7_apply cv dl bm cm av L e0 he0, s15_apply]
  exact Spec.fold16 (fun s => tm cv dl bm cm av L p d s)

end Chain

/-- The output block at (p, q). Slot 0's decay factor `e0` is given by its values `he0`. -/
theorem out_apply (cv dl : FVec Ideal S32x512 .f32) (bm cm : FVec Ideal S32x16 .f32) (av : FVec Ideal S512x16 .f32)
    (L : Fin 16 → Slab) (xn : FVec Ideal S32x512 .bf16) (e0 : FVec Ideal S32x512 .f32) (x6 : FVec Ideal S512x512 .bf16)
    (x7 : FVec Ideal S512 .f32) (x8 : FVec Ideal S512x512 .bf16) (x9 : FVec Ideal S512 .f32)
    (he0 : ∀ (p : Fin 32) (d : Fin 512), e0 (ix2 p d) = Ideal.exp (dl (ix2 p d) * av (ix2 d 0)))
    (p : Fin 32) (q : Fin 512) :
    outV cv dl bm cm av L xn e0 x6 x7 x8 x9 (ix2 p q)
      = Spec.lin (fun d =>
          (∑ s : Fin 16, Spec.step (L s (ix3 p d 0)) (dl (ix2 p d)) (av (ix2 d s)) (bm (ix2 p s)) (cv (ix2 p d)) * cm (ix2 p s))
            * Spec.silu (Spec.lin (fun k => xn (ix2 p k)) (mat512 x6) (vec512 x7) d))
          (mat512 x8) (vec512 x9) q := by
  unfold outV k0_pay1 k0_pay66 k0_pay67
  kread
  simp only [slice_col_apply 15 _ _ _ (15 : Fin 16) rfl, sum_apply cv dl bm cm av L e0 he0]
  rfl

end Cert.KernelIdeal.Pay

end
-- ==== Proof.KCanon.lean ====
/-
  The two output blocks as functions of the eighteen input blocks, index by index.

  The state block is written by sixteen stores, one slab of depth one per slot. Slot `s`'s slab, at (p, q, 0), is the update
  of the old state's entry (p, q, s): so the sixteen slabs are the sixteen depth-`s` slices of ONE function of the block
  index, `blk19`, and since the slabs tile the block, the block holds that function. The output block is written by one
  store through the whole block: it holds `blk18`, the last map of the gated sum over the slots.
-/
import proofs.«170428_j80187039416644_1_alg».proof.Proof.Gen.KernelIdeal.Frame
import proofs.«170428_j80187039416644_1_alg».proof.Proof.KPre
import proofs.«170428_j80187039416644_1_alg».proof.Proof.KState
import proofs.«170428_j80187039416644_1_alg».proof.Proof.KState2
import proofs.«170428_j80187039416644_1_alg».proof.Proof.KOut

set_option maxRecDepth 16384

noncomputable section

namespace Cert.KernelIdeal.Pay

open Cert.KernelIdeal Cert.KernelIdeal.Gen Idealize.ShloMosaic Idealize.ShloMosaic.ValueIdx Cert.LibLayoutCols Cert.LibMatRows
open scoped BigOperators

/-- The zero offsets, as the loads and stores through a whole block spell them. -/
theorem hz2 : (![0, 0] : Fin 2 → Nat) = fun _ => 0 := funext fun a => by fin_cases a <;> rfl
theorem hz1 : (![0] : Fin 1 → Nat) = fun _ => 0 := funext fun a => by fin_cases a <;> rfl

/-- The slab of depth one at depth `o` sits, entry (p, q, 0), at (p, q, o) of the block. -/
theorem slab_emb (o : Nat) (inb : ∀ a, (![0, 0, o] : Fin 3 → Nat) a + S32x512x1.size a ≤ S32x512x16.size a)
    (p : Fin 32) (q : Fin 512) (k : Fin 16) (hk : k.val = o) :
    (Rect.unit (s := S32x512x16) ![0, 0, o] S32x512x1.size inb).emb (ix3 p q (0 : Fin 1)) = ix3 p q k := by
  funext a
  apply Fin.ext
  match a with
  | ⟨0, _⟩ => show 0 + 1 * p.val = p.val; omega
  | ⟨1, _⟩ => show 0 + 1 * q.val = q.val; omega
  | ⟨2, _⟩ => show o + 1 * 0 = k.val; omega

/-- A load of the state block through that slab reads, at (p, q, 0), the block at (p, q, o). -/
theorem slab_apply (x1 : FVec Ideal S32x512x16 .f32) (o : Nat)
    (inb : ∀ a, (![0, 0, o] : Fin 3 → Nat) a + S32x512x1.size a ≤ S32x512x16.size a)
    (p : Fin 32) (q : Fin 512) (k : Fin 16) (hk : k.val = o) :
    View.ld (Val := Elt Ideal) (e' := .f32) x1 (Rect.unit (s := S32x512x16) ![0, 0, o] S32x512x1.size inb) (ix3 p q (0 : Fin 1)) = x1 (ix3 p q k) :=
  congrArg x1 (slab_emb o inb p q k hk)

variable (x0 : FVec Ideal S32x512 .f32) (x1 : FVec Ideal S32x512x16 .f32) (x2 x3 : FVec Ideal S512 .f32)
  (x4 : FVec Ideal S512x512 .bf16) (x5 : FVec Ideal S512 .f32) (x6 : FVec Ideal S512x512 .bf16) (x7 : FVec Ideal S512 .f32)
  (x8 : FVec Ideal S512x512 .bf16) (x9 : FVec Ideal S512 .f32) (x10 : FVec Ideal S512x512 .bf16)
  (x11 x12 : FVec Ideal S512 .f32) (x13 : FVec Ideal S512x16 .f32) (x14 : FVec Ideal S512x16 .bf16)
  (x15 : FVec Ideal S16 .f32) (x16 : FVec Ideal S512x16 .bf16) (x17 : FVec Ideal S16 .f32)

/-- What the sixteen stores leave in the state block: at (p, d, s), the new state of row `p`. -/
def blk19 : S32x512x16.Idx → EReal := fun y =>
  Spec.stateNew (kCW x2 x3 x4 x5 x12) (mat512 x10) (vec512 x11) (mat16b x14) (vec16 x15) (mat16 x13)
    (row x0 (y 0)) (srow x1 (y 0)) (y 1) (y 2)

/-- What the one store leaves in the output block: at (p, q), the output of row `p`. -/
def blk18 : S32x512.Idx → EReal := fun y =>
  Spec.out (kCW x2 x3 x4 x5 x12) (mat512 x10) (vec512 x11) (mat16b x14) (vec16 x15) (mat16 x13) (mat16b x16) (vec16 x17)
    (mat512 x6) (vec512 x7) (mat512 x8) (vec512 x9) (row x0 (y 0)) (srow x1 (y 0)) (y 1)

/-! ## The sixteen slabs are slices of `blk19` -/

/-- The convolved activation under its name. -/
theorem cv_apply (p : Fin 32) (q : Fin 512) :
    cvV x0 x2 x3 x4 x5 x12 (ix2 p q) = Spec.conv (kCW x2 x3 x4 x5 x12) (row x0 p) q := conv_apply x0 x2 x3 x4 x5 x12 p q

theorem pc0 (x : S32x512x1.Idx) :
    piece0 (cvV x0 x2 x3 x4 x5 x12) (dlV x0 x2 x3 x4 x5 x12 x10 x11) (bmV x0 x2 x3 x4 x5 x12 x14 x15) (View.ld (Val := Elt Ideal) (e' := .f32) x1 r0_5)
        (k0_pay11 (F := Ideal) (cbV x0 x2 x3 x4 x5 x12) (k0_pay5 (F := Ideal) x10) x11 x13) x
      = blk19 x0 x1 x2 x3 x4 x5 x10 x11 x12 x13 x14 x15 (r0_5.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece0_apply, e0_apply, cv_apply, delta_apply, bm_apply]
  rw [show k0_pay6 (F := Ideal) (cbV x0 x2 x3 x4 x5 x12) (k0_pay5 (F := Ideal) x10) x11 (ix2 p q)
        = Spec.delta (kCW x2 x3 x4 x5 x12) (mat512 x10) (vec512 x11) (row x0 p) q from delta_apply x0 x2 x3 x4 x5 x12 x10 x11 p q,
    show k0_pay9 (F := Ideal) x13 (ix2 q 0) = Spec.amat (mat16 x13) q 0 from av_apply x13 q 0,
    slab_apply x1 0 _ p q (0 : Fin 16) rfl, slab_emb 0 _ p q (0 : Fin 16) rfl]
  rfl

theorem pc1 (x : S32x512x1.Idx) :
    piece1 (cvV x0 x2 x3 x4 x5 x12) (dlV x0 x2 x3 x4 x5 x12 x10 x11) (bmV x0 x2 x3 x4 x5 x12 x14 x15) (avV x13) (View.ld (Val := Elt Ideal) (e' := .f32) x1 r0_6) x
      = blk19 x0 x1 x2 x3 x4 x5 x10 x11 x12 x13 x14 x15 (r0_6.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece1_apply, cv_apply, delta_apply, bm_apply, av_apply, slab_apply x1 1 _ p q (1 : Fin 16) rfl,
    slab_emb 1 _ p q (1 : Fin 16) rfl]
  rfl

theorem pc2 (x : S32x512x1.Idx) :
    piece2 (cvV x0 x2 x3 x4 x5 x12) (dlV x0 x2 x3 x4 x5 x12 x10 x11) (bmV x0 x2 x3 x4 x5 x12 x14 x15) (avV x13) (View.ld (Val := Elt Ideal) (e' := .f32) x1 r0_7) x
      = blk19 x0 x1 x2 x3 x4 x5 x10 x11 x12 x13 x14 x15 (r0_7.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece2_apply, cv_apply, delta_apply, bm_apply, av_apply, slab_apply x1 2 _ p q (2 : Fin 16) rfl,
    slab_emb 2 _ p q (2 : Fin 16) rfl]
  rfl

theorem pc3 (x : S32x512x1.Idx) :
    piece3 (cvV x0 x2 x3 x4 x5 x12) (dlV x0 x2 x3 x4 x5 x12 x10 x11) (bmV x0 x2 x3 x4 x5 x12 x14 x15) (avV x13) (View.ld (Val := Elt Ideal) (e' := .f32) x1 r0_8) x
      = blk19 x0 x1 x2 x3 x4 x5 x10 x11 x12 x13 x14 x15 (r0_8.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece3_apply, cv_apply, delta_apply, bm_apply, av_apply, slab_apply x1 3 _ p q (3 : Fin 16) rfl,
    slab_emb 3 _ p q (3 : Fin 16) rfl]
  rfl

theorem pc4 (x : S32x512x1.Idx) :
    piece4 (cvV x0 x2 x3 x4 x5 x12) (dlV x0 x2 x3 x4 x5 x12 x10 x11) (bmV x0 x2 x3 x4 x5 x12 x14 x15) (avV x13) (View.ld (Val := Elt Ideal) (e' := .f32) x1 r0_9) x
      = blk19 x0 x1 x2 x3 x4 x5 x10 x11 x12 x13 x14 x15 (r0_9.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece4_apply, cv_apply, delta_apply, bm_apply, av_apply, slab_apply x1 4 _ p q (4 : Fin 16) rfl,
    slab_emb 4 _ p q (4 : Fin 16) rfl]
  rfl

theorem pc5 (x : S32x512x1.Idx) :
    piece5 (cvV x0 x2 x3 x4 x5 x12) (dlV x0 x2 x3 x4 x5 x12 x10 x11) (bmV x0 x2 x3 x4 x5 x12 x14 x15) (avV x13) (View.ld (Val := Elt Ideal) (e' := .f32) x1 r0_10) x
      = blk19 x0 x1 x2 x3 x4 x5 x10 x11 x12 x13 x14 x15 (r0_10.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece5_apply, cv_apply, delta_apply, bm_apply, av_apply, slab_apply x1 5 _ p q (5 : Fin 16) rfl,
    slab_emb 5 _ p q (5 : Fin 16) rfl]
  rfl

theorem pc6 (x : S32x512x1.Idx) :
    piece6 (cvV x0 x2 x3 x4 x5 x12) (dlV x0 x2 x3 x4 x5 x12 x10 x11) (bmV x0 x2 x3 x4 x5 x12 x14 x15) (avV x13) (View.ld (Val := Elt Ideal) (e' := .f32) x1 r0_11) x
      = blk19 x0 x1 x2 x3 x4 x5 x10 x11 x12 x13 x14 x15 (r0_11.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece6_apply, cv_apply, delta_apply, bm_apply, av_apply, slab_apply x1 6 _ p q (6 : Fin 16) rfl,
    slab_emb 6 _ p q (6 : Fin 16) rfl]
  rfl

theorem pc7 (x : S32x512x1.Idx) :
    piece7 (cvV x0 x2 x3 x4 x5 x12) (dlV x0 x2 x3 x4 x5 x12 x10 x11) (bmV x0 x2 x3 x4 x5 x12 x14 x15) (avV x13) (View.ld (Val := Elt Ideal) (e' := .f32) x1 r0_12) x
      = blk19 x0 x1 x2 x3 x4 x5 x10 x11 x12 x13 x14 x15 (r0_12.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece7_apply, cv_apply, delta_apply, bm_apply, av_apply, slab_apply x1 7 _ p q (7 : Fin 16) rfl,
    slab_emb 7 _ p q (7 : Fin 16) rfl]
  rfl

theorem pc8 (x : S32x512x1.Idx) :
    piece8 (cvV x0 x2 x3 x4 x5 x12) (dlV x0 x2 x3 x4 x5 x12 x10 x11) (bmV x0 x2 x3 x4 x5 x12 x14 x15) (avV x13) (View.ld (Val := Elt Ideal) (e' := .f32) x1 r0_13) x
      = blk19 x0 x1 x2 x3 x4 x5 x10 x11 x12 x13 x14 x15 (r0_13.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece8_apply, cv_apply, delta_apply, bm_apply, av_apply, slab_apply x1 8 _ p q (8 : Fin 16) rfl,
    slab_emb 8 _ p q (8 : Fin 16) rfl]
  rfl

theorem pc9 (x : S32x512x1.Idx) :
    piece9 (cvV x0 x2 x3 x4 x5 x12) (dlV x0 x2 x3 x4 x5 x12 x10 x11) (bmV x0 x2 x3 x4 x5 x12 x14 x15) (avV x13) (View.ld (Val := Elt Ideal) (e' := .f32) x1 r0_14) x
      = blk19 x0 x1 x2 x3 x4 x5 x10 x11 x12 x13 x14 x15 (r0_14.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece9_apply, cv_apply, delta_apply, bm_apply, av_apply, slab_apply x1 9 _ p q (9 : Fin 16) rfl,
    slab_emb 9 _ p q (9 : Fin 16) rfl]
  rfl

theorem pc10 (x : S32x512x1.Idx) :
    piece10 (cvV x0 x2 x3 x4 x5 x12) (dlV x0 x2 x3 x4 x5 x12 x10 x11) (bmV x0 x2 x3 x4 x5 x12 x14 x15) (avV x13) (View.ld (Val := Elt Ideal) (e' := .f32) x1 r0_15) x
      = blk19 x0 x1 x2 x3 x4 x5 x10 x11 x12 x13 x14 x15 (r0_15.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece10_apply, cv_apply, delta_apply, bm_apply, av_apply, slab_apply x1 10 _ p q (10 : Fin 16) rfl,
    slab_emb 10 _ p q (10 : Fin 16) rfl]
  rfl

theorem pc11 (x : S32x512x1.Idx) :
    piece11 (cvV x0 x2 x3 x4 x5 x12) (dlV x0 x2 x3 x4 x5 x12 x10 x11) (bmV x0 x2 x3 x4 x5 x12 x14 x15) (avV x13) (View.ld (Val := Elt Ideal) (e' := .f32) x1 r0_16) x
      = blk19 x0 x1 x2 x3 x4 x5 x10 x11 x12 x13 x14 x15 (r0_16.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece11_apply, cv_apply, delta_apply, bm_apply, av_apply, slab_apply x1 11 _ p q (11 : Fin 16) rfl,
    slab_emb 11 _ p q (11 : Fin 16) rfl]
  rfl

theorem pc12 (x : S32x512x1.Idx) :
    piece12 (cvV x0 x2 x3 x4 x5 x12) (dlV x0 x2 x3 x4 x5 x12 x10 x11) (bmV x0 x2 x3 x4 x5 x12 x14 x15) (avV x13) (View.ld (Val := Elt Ideal) (e' := .f32) x1 r0_17) x
      = blk19 x0 x1 x2 x3 x4 x5 x10 x11 x12 x13 x14 x15 (r0_17.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece12_apply, cv_apply, delta_apply, bm_apply, av_apply, slab_apply x1 12 _ p q (12 : Fin 16) rfl,
    slab_emb 12 _ p q (12 : Fin 16) rfl]
  rfl

theorem pc13 (x : S32x512x1.Idx) :
    piece13 (cvV x0 x2 x3 x4 x5 x12) (dlV x0 x2 x3 x4 x5 x12 x10 x11) (bmV x0 x2 x3 x4 x5 x12 x14 x15) (avV x13) (View.ld (Val := Elt Ideal) (e' := .f32) x1 r0_18) x
      = blk19 x0 x1 x2 x3 x4 x5 x10 x11 x12 x13 x14 x15 (r0_18.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece13_apply, cv_apply, delta_apply, bm_apply, av_apply, slab_apply x1 13 _ p q (13 : Fin 16) rfl,
    slab_emb 13 _ p q (13 : Fin 16) rfl]
  rfl

theorem pc14 (x : S32x512x1.Idx) :
    piece14 (cvV x0 x2 x3 x4 x5 x12) (dlV x0 x2 x3 x4 x5 x12 x10 x11) (bmV x0 x2 x3 x4 x5 x12 x14 x15) (avV x13) (View.ld (Val := Elt Ideal) (e' := .f32) x1 r0_19) x
      = blk19 x0 x1 x2 x3 x4 x5 x10 x11 x12 x13 x14 x15 (r0_19.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece14_apply, cv_apply, delta_apply, bm_apply, av_apply, slab_apply x1 14 _ p q (14 : Fin 16) rfl,
    slab_emb 14 _ p q (14 : Fin 16) rfl]
  rfl

theorem pc15 (x : S32x512x1.Idx) :
    piece15 (cvV x0 x2 x3 x4 x5 x12) (dlV x0 x2 x3 x4 x5 x12 x10 x11) (bmV x0 x2 x3 x4 x5 x12 x14 x15) (avV x13) (View.ld (Val := Elt Ideal) (e' := .f32) x1 r0_20) x
      = blk19 x0 x1 x2 x3 x4 x5 x10 x11 x12 x13 x14 x15 (r0_20.emb x) := by
  obtain ⟨p, q, u, rfl⟩ : ∃ (p : Fin 32) (q : Fin 512) (u : Fin 1), x = ix3 p q u := ⟨x 0, x 1, x 2, eq_ix3 x⟩
  obtain rfl : u = 0 := Subsingleton.elim _ _
  rw [piece15_apply, cv_apply, delta_apply, bm_apply, av_apply, slab_apply x1 15 _ p q (15 : Fin 16) rfl,
    slab_emb 15 _ p q (15 : Fin 16) rfl]
  rfl

/-! ## The state block -/

/-- The sixteen slabs tile the state block, each a slice of `blk19`: the block holds `blk19`. -/
theorem out19_apply (y : S32x512x16.Idx) :
    out0_19 (F := Ideal) x0 x1 x2 x3 x4 x5 x6 x7 x8 x9 x10 x11 x12 x13 x14 x15 x16 x17 y
      = blk19 x0 x1 x2 x3 x4 x5 x10 x11 x12 x13 x14 x15 y := by
  unfold out0_19
  simp only [View.ld_unit_zero (S := S32x512) hz2, View.ld_unit_zero (S := S512) hz1, View.ld_unit_zero (S := S512x512) hz2,
    View.ld_unit_zero (S := S512x16) hz2, View.ld_unit_zero (S := S16) hz1]
  refine View.canon_apply_of_pieces (Val := Elt Ideal) (blk19 x0 x1 x2 x3 x4 x5 x10 x11 x12 x13 x14 x15) _ ?_ y
    (cover0_19 _ _ _ _ _ _ _ _ _ _ _ _ _ _ _ _ y)
  intro pc hpc
  rcases List.mem_cons.mp hpc with rfl | hpc
  · exact fun x => pc15 x0 x1 x2 x3 x4 x5 x10 x11 x12 x13 x14 x15 x
  rcases List.mem_cons.mp hpc with rfl | hpc
  · exact fun x => pc14 x0 x1 x2 x3 x4 x5 x10 x11 x12 x13 x14 x15 x
  rcases List.mem_cons.mp hpc with rfl | hpc
  · exact fun x => pc13 x0 x1 x2 x3 x4 x5 x10 x11 x12 x13 x14 x15 x
  rcases List.mem_cons.mp hpc with rfl | hpc
  · exact fun x => pc12 x0 x1 x2 x3 x4 x5 x10 x11 x12 x13 x14 x15 x
  rcases List.mem_cons.mp hpc with rfl | hpc
  · exact fun x => pc11 x0 x1 x2 x3 x4 x5 x10 x11 x12 x13 x14 x15 x
  rcases List.mem_cons.mp hpc with rfl | hpc
  · exact fun x => pc10 x0 x1 x2 x3 x4 x5 x10 x11 x12 x13 x14 x15 x
  rcases List.mem_cons.mp hpc with rfl | hpc
  · exact fun x => pc9 x0 x1 x2 x3 x4 x5 x10 x11 x12 x13 x14 x15 x
  rcases List.mem_cons.mp hpc with rfl | hpc
  · exact fun x => pc8 x0 x1 x2 x3 x4 x5 x10 x11 x12 x13 x14 x15 x
  rcases List.mem_cons.mp hpc with rfl | hpc
  · exact fun x => pc7 x0 x1 x2 x3 x4 x5 x10 x11 x12 x13 x14 x15 x
  rcases List.mem_cons.mp hpc with rfl | hpc
  · exact fun x => pc6 x0 x1 x2 x3 x4 x5 x10 x11 x12 x13 x14 x15 x
  rcases List.mem_cons.mp hpc with rfl | hpc
  · exact fun x => pc5 x0 x1 x2 x3 x4 x5 x10 x11 x12 x13 x14 x15 x
  rcases List.mem_cons.mp hpc with rfl | hpc
  · exact fun x => pc4 x0 x1 x2 x3 x4 x5 x10 x11 x12 x13 x14 x15 x
  rcases List.mem_cons.mp hpc with rfl | hpc
  · exact fun x => pc3 x0 x1 x2 x3 x4 x5 x10 x11 x12 x13 x14 x15 x
  rcases List.mem_cons.mp hpc with rfl | hpc
  · exact fun x => pc2 x0 x1 x2 x3 x4 x5 x10 x11 x12 x13 x14 x15 x
  rcases List.mem_cons.mp hpc with rfl | hpc
  · exact fun x => pc1 x0 x1 x2 x3 x4 x5 x10 x11 x12 x13 x14 x15 x
  rcases List.mem_cons.mp hpc with rfl | hpc
  · exact fun x => pc0 x0 x1 x2 x3 x4 x5 x10 x11 x12 x13 x14 x15 x
  nomatch hpc

/-! ## The output block -/

/-- The sixteen slabs of the state block, by slot. -/
def slabs (x1 : FVec Ideal S32x512x16 .f32) : Fin 16 → Slab :=
  ![View.ld (Val := Elt Ideal) (e' := .f32) x1 r0_5, View.ld (Val := Elt Ideal) (e' := .f32) x1 r0_6,
    View.ld (Val := Elt Ideal) (e' := .f32) x1 r0_7, View.ld (Val := Elt Ideal) (e' := .f32) x1 r0_8,
    View.ld (Val := Elt Ideal) (e' := .f32) x1 r0_9, View.ld (Val := Elt Ideal) (e' := .f32) x1 r0_10,
    View.ld (Val := Elt Ideal) (e' := .f32) x1 r0_11, View.ld (Val := Elt Ideal) (e' := .f32) x1 r0_12,
    View.ld (Val := Elt Ideal) (e' := .f32) x1 r0_13, View.ld (Val := Elt Ideal) (e' := .f32) x1 r0_14,
    View.ld (Val := Elt Ideal) (e' := .f32) x1 r0_15, View.ld (Val := Elt Ideal) (e' := .f32) x1 r0_16,
    View.ld (Val := Elt Ideal) (e' := .f32) x1 r0_17, View.ld (Val := Elt Ideal) (e' := .f32) x1 r0_18,
    View.ld (Val := Elt Ideal) (e' := .f32) x1 r0_19, View.ld (Val := Elt Ideal) (e' := .f32) x1 r0_20]

/-- Slot `s`'s slab at (p, d, 0) is the state block at (p, d, s). -/
theorem slabs_apply (s : Fin 16) (p : Fin 32) (d : Fin 512) : slabs x1 s (ix3 p d (0 : Fin 1)) = x1 (ix3 p d s) := by
  fin_cases s
  · exact slab_apply x1 0 _ p d (0 : Fin 16) rfl
  · exact slab_apply x1 1 _ p d (1 : Fin 16) rfl
  · exact slab_apply x1 2 _ p d (2 : Fin 16) rfl
  · exact slab_apply x1 3 _ p d (3 : Fin 16) rfl
  · exact slab_apply x1 4 _ p d (4 : Fin 16) rfl
  · exact slab_apply x1 5 _ p d (5 : Fin 16) rfl
  · exact slab_apply x1 6 _ p d (6 : Fin 16) rfl
  · exact slab_apply x1 7 _ p d (7 : Fin 16) rfl
  · exact slab_apply x1 8 _ p d (8 : Fin 16) rfl
  · exact slab_apply x1 9 _ p d (9 : Fin 16) rfl
  · exact slab_apply x1 10 _ p d (10 : Fin 16) rfl
  · exact slab_apply x1 11 _ p d (11 : Fin 16) rfl
  · exact slab_apply x1 12 _ p d (12 : Fin 16) rfl
  · exact slab_apply x1 13 _ p d (13 : Fin 16) rfl
  · exact slab_apply x1 14 _ p d (14 : Fin 16) rfl
  · exact slab_apply x1 15 _ p d (15 : Fin 16) rfl

/-- The one store through the whole output block leaves `blk18`. -/
theorem out18_apply (y : S32x512.Idx) :
    out0_18 (F := Ideal) x0 x1 x2 x3 x4 x5 x6 x7 x8 x9 x10 x11 x12 x13 x14 x15 x16 x17 y
      = blk18 x0 x1 x2 x3 x4 x5 x6 x7 x8 x9 x10 x11 x12 x13 x14 x15 x16 x17 y := by
  unfold out0_18
  simp only [View.ld_unit_zero (S := S32x512) hz2, View.ld_unit_zero (S := S512) hz1, View.ld_unit_zero (S := S512x512) hz2,
    View.ld_unit_zero (S := S512x16) hz2, View.ld_unit_zero (S := S16) hz1]
  rw [View.canon_unit_zero hz2]
  obtain ⟨p, q, rfl⟩ : ∃ (p : Fin 32) (q : Fin 512), y = ix2 p q := ⟨y 0, y 1, eq_ix2 y⟩
  show outV (cvV x0 x2 x3 x4 x5 x12) (dlV x0 x2 x3 x4 x5 x12 x10 x11) (bmV x0 x2 x3 x4 x5 x12 x14 x15)
      (cmV x0 x2 x3 x4 x5 x12 x16 x17) (avV x13) (slabs x1) (xnV x0 x2 x3)
      (k0_pay11 (F := Ideal) (cbV x0 x2 x3 x4 x5 x12) (k0_pay5 (F := Ideal) x10) x11 x13) x6 x7 x8 x9 (ix2 p q) = _
  rw [out_apply _ _ _ _ _ _ _ _ _ _ _ _ (fun p d => e0_apply _ _ _ _ p d)]
  simp only [cv_apply, delta_apply, bm_apply, cm_apply, av_apply, slabs_apply, xn_apply]
  rfl

end Cert.KernelIdeal.Pay

end
-- ==== Proof.KHost.lean ====
/-
  What the weight windows' arrays hold when the region is entered: the host operations before it, read at coordinates.

  Each 512×512 (or 16×512) weight is transposed and narrowed (the narrowing keeps every extended real), so the array the
  window stages reads, at (k, q), the argument at (q, k); the per-channel factor is the middle tap of the 512×1×3 argument,
  cut out and flattened: at k, the argument at (k, 0, 1).
-/
import proofs.«170428_j80187039416644_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KHost

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

theorem V_v1 (k q : Fin 512) :
    (V m c main_v1 : S512x512.Idx → EReal) (ix2 k q) = (m ((c : Thread nD τ).loc main_arg4) : S512x512.Idx → EReal) (ix2 q k) := by
  have e : (V m c main_v1 : S512x512.Idx → EReal)
      = truncf (F := Ideal) .bf16 (transpose S512x512 [1, 0] (m ((c : Thread nD τ).loc main_arg4) : FVec Ideal S512x512 .f32)
          transposes_S512x512_S512x512_1_0) bitsLt_bf16_f32 := by
    dsimp only [Gen.V, Gen.hostOps0]; after_results <;> rfl
  rw [e, truncf_apply]
  exact transpose_ix2_apply _ _ k q

theorem V_v3 (k q : Fin 512) :
    (V m c main_v3 : S512x512.Idx → EReal) (ix2 k q) = (m ((c : Thread nD τ).loc main_arg6) : S512x512.Idx → EReal) (ix2 q k) := by
  have e : (V m c main_v3 : S512x512.Idx → EReal)
      = truncf (F := Ideal) .bf16 (transpose S512x512 [1, 0] (m ((c : Thread nD τ).loc main_arg6) : FVec Ideal S512x512 .f32)
          transposes_S512x512_S512x512_1_0) bitsLt_bf16_f32 := by
    dsimp only [Gen.V, Gen.hostOps0]; after_results <;> rfl
  rw [e, truncf_apply]
  exact transpose_ix2_apply _ _ k q

theorem V_v5 (k q : Fin 512) :
    (V m c main_v5 : S512x512.Idx → EReal) (ix2 k q) = (m ((c : Thread nD τ).loc main_arg8) : S512x512.Idx → EReal) (ix2 q k) := by
  have e : (V m c main_v5 : S512x512.Idx → EReal)
      = truncf (F := Ideal) .bf16 (transpose S512x512 [1, 0] (m ((c : Thread nD τ).loc main_arg8) : FVec Ideal S512x512 .f32)
          transposes_S512x512_S512x512_1_0) bitsLt_bf16_f32 := by
    dsimp only [Gen.V, Gen.hostOps0]; after_results <;> rfl
  rw [e, truncf_apply]
  exact transpose_ix2_apply _ _ k q

theorem V_v7 (k q : Fin 512) :
    (V m c main_v7 : S512x512.Idx → EReal) (ix2 k q) = (m ((c : Thread nD τ).loc main_arg16) : S512x512.Idx → EReal) (ix2 q k) := by
  have e : (V m c main_v7 : S512x512.Idx → EReal)
      = truncf (F := Ideal) .bf16 (transpose S512x512 [1, 0] (m ((c : Thread nD τ).loc main_arg16) : FVec Ideal S512x512 .f32)
          transposes_S512x512_S512x512_1_0) bitsLt_bf16_f32 := by
    dsimp only [Gen.V, Gen.hostOps0]; after_results <;> rfl
  rw [e, truncf_apply]
  exact transpose_ix2_apply _ _ k q

theorem V_v9 (k : Fin 512) (s : Fin 16) :
    (V m c main_v9 : S512x16.Idx → EReal) (ix2 k s) = (m ((c : Thread nD τ).loc main_arg12) : S16x512.Idx → EReal) (ix2 s k) := by
  have e : (V m c main_v9 : S512x16.Idx → EReal)
      = truncf (F := Ideal) .bf16 (transpose S512x16 [1, 0] (m ((c : Thread nD τ).loc main_arg12) : FVec Ideal S16x512 .f32)
          transposes_S16x512_S512x16_1_0) bitsLt_bf16_f32 := by
    dsimp only [Gen.V, Gen.hostOps0]; after_results <;> rfl
  rw [e, truncf_apply]
  exact transpose_ix2_apply _ _ k s

theorem V_v11 (k : Fin 512) (s : Fin 16) :
    (V m c main_v11 : S512x16.Idx → EReal) (ix2 k s) = (m ((c : Thread nD τ).loc main_arg14) : S16x512.Idx → EReal) (ix2 s k) := by
  have e : (V m c main_v11 : S512x16.Idx → EReal)
      = truncf (F := Ideal) .bf16 (transpose S512x16 [1, 0] (m ((c : Thread nD τ).loc main_arg14) : FVec Ideal S16x512 .f32)
          transposes_S16x512_S512x16_1_0) bitsLt_bf16_f32 := by
    dsimp only [Gen.V, Gen.hostOps0]; after_results <;> rfl
  rw [e, truncf_apply]
  exact transpose_ix2_apply _ _ k s

theorem V_v13 (k : Fin 512) :
    (V m c main_v13 : S512.Idx → EReal) (ix1 k)
      = (m ((c : Thread nD τ).loc main_arg10) : S512x1x3.Idx → EReal) (ix3 k (0 : Fin 1) (1 : Fin 3)) := by
  have e : (V m c main_v13 : S512.Idx → EReal)
      = shapeCast S512 (extractStridedSlice S512x1x1 ![0, 0, 1] (m ((c : Thread nD τ).loc main_arg10) : S512x1x3.Idx → EReal)
          slices_S512x1x3_S512x1x1_0_0_1) shapeCasts_S512x1x1_S512 := by
    dsimp only [Gen.V, Gen.hostOps0]; after_results <;> rfl
  rw [e]
  refine (shapeCast_apply _ shapeCasts_S512x1x1_S512 (ix1 k) (ix3 k (0 : Fin 1) (0 : Fin 1)) ?_).trans ?_
  · rw [Shape.rowMajor_val_three, Shape.rowMajor_val_one]
    show (k.val * 1 + 0) * 1 + 0 = k.val
    omega
  · exact extractStridedSlice_apply (s := S512x1x3) (t := S512x1x1) ![0, 0, 1]
      (m ((c : Thread nD τ).loc main_arg10) : S512x1x3.Idx → EReal) slices_S512x1x3_S512x1x1_0_0_1
      (ix3 k (0 : Fin 1) (0 : Fin 1)) (ix3 k (0 : Fin 1) (1 : Fin 3)) (fun a => match a with
      | ⟨0, _⟩ => by show k.val = 0 + k.val; omega
      | ⟨1, _⟩ => rfl
      | ⟨2, _⟩ => rfl)

end Cert.KernelIdeal.KHost

end
-- ==== Proof.GArr.lean ====
/-
  The two results as functions of the eighteen argument arrays, index by index.

  Row `i 0` of the 8192×512 input is a batch row and row `i 0` of the 8192×512×16 state its 512×16 state; a weight matrix
  stored (output, input) enters in the orientation in which it is contracted, so as its transpose; the per-channel factor
  is the middle tap of the 512×1×3 array. The output at (b, q) is `out` of row `b` at `q`; the new state at (b, d, s) is
  `stateNew` of row `b` at (d, s).
-/
import proofs.«170428_j80187039416644_1_alg».proof.Proof.Spec

noncomputable section

namespace Cert.GArr

open Idealize.ShloMosaic Idealize.ShloMosaic.ValueIdx

/-- Arrays of rank 1, 2, 3 over the extended reals. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

def v512 (a : A1 512) : Spec.V512 := fun k => a (ix1 k)
def v16 (a : A1 16) : Spec.V16 := fun s => a (ix1 s)
/-- A (output, input) matrix in the orientation in which it is contracted. -/
def tr (a : A2 512 512) : Spec.M512 := fun k q => a (ix2 q k)
def tr16 (a : A2 16 512) : Spec.M16 := fun k s => a (ix2 s k)
def m16 (a : A2 512 16) : Spec.M16 := fun d s => a (ix2 d s)
/-- The middle tap. -/
def tap (a : A3 512 1 3) : Spec.V512 := fun k => a (ix3 k (0 : Fin 1) (1 : Fin 3))
def rowOf (a0 : A2 8192 512) (b : Fin 8192) : Spec.V512 := fun k => a0 (ix2 b k)
def stateOf (a1 : A3 8192 512 16) (b : Fin 8192) : Spec.M16 := fun d s => a1 (ix3 b d s)
def ln (a2 a3 : A1 512) : Spec.LN := ⟨v512 a2, v512 a3⟩
def cw (a2 a3 : A1 512) (a4 : A2 512 512) (a5 : A1 512) (a10 : A3 512 1 3) : Spec.CW := ⟨ln a2 a3, tr a4, v512 a5, tap a10⟩

section
variable (a0 : A2 8192 512) (a1 : A3 8192 512 16) (a2 a3 : A1 512) (a4 : A2 512 512) (a5 : A1 512) (a6 : A2 512 512)
  (a7 : A1 512) (a8 : A2 512 512) (a9 : A1 512) (a10 : A3 512 1 3) (a11 : A2 512 16) (a12 : A2 16 512) (a13 : A1 16)
  (a14 : A2 16 512) (a15 : A1 16) (a16 : A2 512 512) (a17 : A1 512)

/-- The new state at (b, d, s). -/
def stateAt (b : Fin 8192) (d : Fin 512) (s : Fin 16) : EReal :=
  Spec.stateNew (cw a2 a3 a4 a5 a10) (tr a16) (v512 a17) (tr16 a12) (v16 a13) (m16 a11) (rowOf a0 b) (stateOf a1 b) d s

/-- The output at (b, q). -/
def outAt (b : Fin 8192) (q : Fin 512) : EReal :=
  Spec.out (cw a2 a3 a4 a5 a10) (tr a16) (v512 a17) (tr16 a12) (v16 a13) (m16 a11) (tr16 a14) (v16 a15)
    (tr a6) (v512 a7) (tr a8) (v512 a9) (rowOf a0 b) (stateOf a1 b) q

/-- The whole new state. -/
def Gstate : A3 8192 512 16 := fun i => stateAt a0 a1 a2 a3 a4 a5 a10 a11 a12 a13 a16 a17 (i 0) (i 1) (i 2)

/-- The whole output. -/
def Gout : A2 8192 512 := fun i => outAt a0 a1 a2 a3 a4 a5 a6 a7 a8 a9 a10 a11 a12 a13 a14 a15 a16 a17 (i 0) (i 1)

end

end Cert.GArr

end
-- ==== Proof.KBlocks.lean ====
/-
  The kernel's two result arrays, whole.

  The grid has 256 points; point `t` stages rows 32 t … 32 t + 31 of the input and of the state, and every weight whole (the
  matrices as the host operations before the region left them: transposed, so that the staged array at (k, q) is the argument
  at (q, k); the per-channel factor the middle tap of its argument). So the parameters the body sees at any point are the
  parameters of the arguments, block row `p` is batch row `32 t + p`, and what point `t` writes back is rows
  32 t … 32 t + 31 of the specification's two results. Every row lies in exactly the block of point `row / 32`: the arrays
  end holding the results.
-/
import proofs.«170428_j80187039416644_1_alg».proof.Proof.Gen.KernelIdeal.Value
import proofs.«170428_j80187039416644_1_alg».proof.Proof.KCanon
import proofs.«170428_j80187039416644_1_alg».proof.Proof.KHost
import proofs.«170428_j80187039416644_1_alg».proof.Proof.GArr

set_option maxRecDepth 16384

noncomputable section

namespace Cert.KernelIdeal.KVal

open Cert.KernelIdeal Cert.KernelIdeal.Gen Cert.KernelIdeal.Pay Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## The printed index maps, decided over the grid -/

/-- The input rows, the state and the two outputs move with the point on axis 0 and stay at block 0 elsewhere. -/
theorem idx_rows : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_18.index t (0 : Fin 2) = t.val ∧ win0_18.index t (1 : Fin 2) = 0
    ∧ win0_19.index t (0 : Fin 3) = t.val ∧ win0_19.index t (1 : Fin 3) = 0 ∧ win0_19.index t (2 : Fin 3) = 0 :=
  (by decide +kernel : ∀ t : Fin grid0.N, _)

/-- Every vector of weights stays at block 0. -/
theorem idx_vecs : ∀ t : Fin cfg0.N, win0_2.index t (0 : Fin 1) = 0 ∧ win0_3.index t (0 : Fin 1) = 0
    ∧ win0_5.index t (0 : Fin 1) = 0 ∧ win0_7.index t (0 : Fin 1) = 0 ∧ win0_9.index t (0 : Fin 1) = 0
    ∧ win0_11.index t (0 : Fin 1) = 0 ∧ win0_12.index t (0 : Fin 1) = 0 ∧ win0_15.index t (0 : Fin 1) = 0
    ∧ win0_17.index t (0 : Fin 1) = 0 :=
  (by decide +kernel : ∀ t : Fin grid0.N, _)

/-- Every matrix of weights stays at block (0, 0). -/
theorem idx_mats : ∀ t : Fin cfg0.N, win0_4.index t (0 : Fin 2) = 0 ∧ win0_4.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_10.index t (0 : Fin 2) = 0 ∧ win0_10.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_16.index t (0 : Fin 2) = 0 ∧ win0_16.index t (1 : Fin 2) = 0 :=
  (by decide +kernel : ∀ t : Fin grid0.N, _)

/-! ## The argument arrays and the blocks, under their literal types -/

abbrev A0 (c : Dev nD) : GArr.A2 8192 512 := m ((c : Thread nD τ).loc main_arg0)
abbrev A1 (c : Dev nD) : GArr.A3 8192 512 16 := m ((c : Thread nD τ).loc main_arg1)
abbrev A2 (c : Dev nD) : GArr.A1 512 := m ((c : Thread nD τ).loc main_arg2)
abbrev A3 (c : Dev nD) : GArr.A1 512 := m ((c : Thread nD τ).loc main_arg3)
abbrev A4 (c : Dev nD) : GArr.A2 512 512 := m ((c : Thread nD τ).loc main_arg4)
abbrev A5 (c : Dev nD) : GArr.A1 512 := m ((c : Thread nD τ).loc main_arg5)
abbrev A6 (c : Dev nD) : GArr.A2 512 512 := m ((c : Thread nD τ).loc main_arg6)
abbrev A7 (c : Dev nD) : GArr.A1 512 := m ((c : Thread nD τ).loc main_arg7)
abbrev A8 (c : Dev nD) : GArr.A2 512 512 := m ((c : Thread nD τ).loc main_arg8)
abbrev A9 (c : Dev nD) : GArr.A1 512 := m ((c : Thread nD τ).loc main_arg9)
abbrev A10 (c : Dev nD) : GArr.A3 512 1 3 := m ((c : Thread nD τ).loc main_arg10)
abbrev A11 (c : Dev nD) : GArr.A2 512 16 := m ((c : Thread nD τ).loc main_arg11)
abbrev A12 (c : Dev nD) : GArr.A2 16 512 := m ((c : Thread nD τ).loc main_arg12)
abbrev A13 (c : Dev nD) : GArr.A1 16 := m ((c : Thread nD τ).loc main_arg13)
abbrev A14 (c : Dev nD) : GArr.A2 16 512 := m ((c : Thread nD τ).loc main_arg14)
abbrev A15 (c : Dev nD) : GArr.A1 16 := m ((c : Thread nD τ).loc main_arg15)
abbrev A16 (c : Dev nD) : GArr.A2 512 512 := m ((c : Thread nD τ).loc main_arg16)
abbrev A17 (c : Dev nD) : GArr.A1 512 := m ((c : Thread nD τ).loc main_arg17)

abbrev b0 (c : Dev nD) (t : Fin cfg0.N) : FVec Ideal S32x512 .f32 := iblk m c 0 t
abbrev b1 (c : Dev nD) (t : Fin cfg0.N) : FVec Ideal S32x512x16 .f32 := iblk m c 1 t
abbrev b2 (c : Dev nD) (t : Fin cfg0.N) : FVec Ideal S512 .f32 := iblk m c 2 t
abbrev b3 (c : Dev nD) (t : Fin cfg0.N) : FVec Ideal S512 .f32 := iblk m c 3 t
abbrev b4 (c : Dev nD) (t : Fin cfg0.N) : FVec Ideal S512x512 .bf16 := iblk m c 4 t
abbrev b5 (c : Dev nD) (t : Fin cfg0.N) : FVec Ideal S512 .f32 := iblk m c 5 t
abbrev b6 (c : Dev nD) (t : Fin cfg0.N) : FVec Ideal S512x512 .bf16 := iblk m c 6 t
abbrev b7 (c : Dev nD) (t : Fin cfg0.N) : FVec Ideal S512 .f32 := iblk m c 7 t
abbrev b8 (c : Dev nD) (t : Fin cfg0.N) : FVec Ideal S512x512 .bf16 := iblk m c 8 t
abbrev b9 (c : Dev nD) (t : Fin cfg0.N) : FVec Ideal S512 .f32 := iblk m c 9 t
abbrev b10 (c : Dev nD) (t : Fin cfg0.N) : FVec Ideal S512x512 .bf16 := iblk m c 10 t
abbrev b11 (c : Dev nD) (t : Fin cfg0.N) : FVec Ideal S512 .f32 := iblk m c 11 t
abbrev b12 (c : Dev nD) (t : Fin cfg0.N) : FVec Ideal S512 .f32 := iblk m c 12 t
abbrev b13 (c : Dev nD) (t : Fin cfg0.N) : FVec Ideal S512x16 .f32 := iblk m c 13 t
abbrev b14 (c : Dev nD) (t : Fin cfg0.N) : FVec Ideal S512x16 .bf16 := iblk m c 14 t
abbrev b15 (c : Dev nD) (t : Fin cfg0.N) : FVec Ideal S16 .f32 := iblk m c 15 t
abbrev b16 (c : Dev nD) (t : Fin cfg0.N) : FVec Ideal S512x16 .bf16 := iblk m c 16 t
abbrev b17 (c : Dev nD) (t : Fin cfg0.N) : FVec Ideal S16 .f32 := iblk m c 17 t

/-! ## Each block read against its argument -/

/-- Row `p` of the input block at point `t` is row `32 t + p` of the input. -/
theorem b0_at (c : Dev nD) (t : Fin cfg0.N) (p : Fin 32) (k : Fin 512) (r : Fin 8192) (hr : r.val = 32 * t.val + p.val) :
    b0 m c t (ix2 p k) = A0 m c (ix2 r k) := by
  obtain ⟨e0, e1, -⟩ := idx_rows t
  show V m c main_arg0 (((cfg0.win 0).blk t).view.emb (ix2 p k)) = _
  rw [V_main_arg0]
  refine congrArg (m ((c : Thread nD τ).loc main_arg0)) ?_
  funext a
  apply Fin.ext
  match a with
  | ⟨0, _⟩ => show win0_0.index t (0 : Fin 2) * 32 + 1 * p.val = r.val; omega
  | ⟨1, _⟩ => show win0_0.index t (1 : Fin 2) * 512 + 1 * k.val = k.val; omega

/-- Row `p` of the state block at point `t` is row `32 t + p` of the state. -/
theorem b1_at (c : Dev nD) (t : Fin cfg0.N) (p : Fin 32) (d : Fin 512) (s : Fin 16) (r : Fin 8192)
    (hr : r.val = 32 * t.val + p.val) : b1 m c t (ix3 p d s) = A1 m c (ix3 r d s) := by
  obtain ⟨-, -, e0, e1, e2, -⟩ := idx_rows t
  show V m c main_arg1 (((cfg0.win 1).blk t).view.emb (ix3 p d s)) = _
  rw [V_main_arg1]
  refine congrArg (m ((c : Thread nD τ).loc main_arg1)) ?_
  funext a
  apply Fin.ext
  match a with
  | ⟨0, _⟩ => show win0_1.index t (0 : Fin 3) * 32 + 1 * p.val = r.val; omega
  | ⟨1, _⟩ => show win0_1.index t (1 : Fin 3) * 512 + 1 * d.val = d.val; omega
  | ⟨2, _⟩ => show win0_1.index t (2 : Fin 3) * 16 + 1 * s.val = s.val; omega

theorem b2_at (c : Dev nD) (t : Fin cfg0.N) (k : Fin 512) : b2 m c t (ix1 k) = A2 m c (ix1 k) := by
  obtain ⟨e, -⟩ := idx_vecs t
  show V m c main_arg2 (((cfg0.win 2).blk t).view.emb (ix1 k)) = _
  rw [V_main_arg2]
  refine congrArg (m ((c : Thread nD τ).loc main_arg2)) ?_
  funext a
  apply Fin.ext
  match a with
  | ⟨0, _⟩ => show win0_2.index t (0 : Fin 1) * 512 + 1 * k.val = k.val; omega

theorem b3_at (c : Dev nD) (t : Fin cfg0.N) (k : Fin 512) : b3 m c t (ix1 k) = A3 m c (ix1 k) := by
  obtain ⟨-, e, -⟩ := idx_vecs t
  show V m c main_arg3 (((cfg0.win 3).blk t).view.emb (ix1 k)) = _
  rw [V_main_arg3]
  refine congrArg (m ((c : Thread nD τ).loc main_arg3)) ?_
  funext a
  apply Fin.ext
  match a with
  | ⟨0, _⟩ => show win0_3.index t (0 : Fin 1) * 512 + 1 * k.val = k.val; omega

theorem b5_at (c : Dev nD) (t : Fin cfg0.N) (k : Fin 512) : b5 m c t (ix1 k) = A5 m c (ix1 k) := by
  obtain ⟨-, -, e, -⟩ := idx_vecs t
  show V m c main_arg5 (((cfg0.win 5).blk t).view.emb (ix1 k)) = _
  rw [V_main_arg5]
  refine congrArg (m ((c : Thread nD τ).loc main_arg5)) ?_
  funext a
  apply Fin.ext
  match a with
  | ⟨0, _⟩ => show win0_5.index t (0 : Fin 1) * 512 + 1 * k.val = k.val; omega

theorem b7_at (c : Dev nD) (t : Fin cfg0.N) (k : Fin 512) : b7 m c t (ix1 k) = A7 m c (ix1 k) := by
  obtain ⟨-, -, -, e, -⟩ := idx_vecs t
  show V m c main_arg7 (((cfg0.win 7).blk t).view.emb (ix1 k)) = _
  rw [V_main_arg7]
  refine congrArg (m ((c : Thread nD τ).loc main_arg7)) ?_
  funext a
  apply Fin.ext
  match a with
  | ⟨0, _⟩ => show win0_7.index t (0 : Fin 1) * 512 + 1 * k.val = k.val; omega

theorem b9_at (c : Dev nD) (t : Fin cfg0.N) (k : Fin 512) : b9 m c t (ix1 k) = A9 m c (ix1 k) := by
  obtain ⟨-, -, -, -, e, -⟩ := idx_vecs t
  show V m c main_arg9 (((cfg0.win 9).blk t).view.emb (ix1 k)) = _
  rw [V_main_arg9]
  refine congrArg (m ((c : Thread nD τ).loc main_arg9)) ?_
  funext a
  apply Fin.ext
  match a with
  | ⟨0, _⟩ => show win0_9.index t (0 : Fin 1) * 512 + 1 * k.val = k.val; omega

/-- Window 11 stages the second map's bias, argument 17. -/
theorem b11_at (c : Dev nD) (t : Fin cfg0.N) (k : Fin 512) : b11 m c t (ix1 k) = A17 m c (ix1 k) := by
  obtain ⟨-, -, -, -, -, e, -⟩ := idx_vecs t
  show V m c main_arg17 (((cfg0.win 11).blk t).view.emb (ix1 k)) = _
  rw [V_main_arg17]
  refine congrArg (m ((c : Thread nD τ).loc main_arg17)) ?_
  funext a
  apply Fin.ext
  match a with
  | ⟨0, _⟩ => show win0_11.index t (0 : Fin 1) * 512 + 1 * k.val = k.val; omega

/-- Window 12 stages the per-channel factor: the middle tap of argument 10. -/
theorem b12_at (c : Dev nD) (t : Fin cfg0.N) (k : Fin 512) :
    b12 m c t (ix1 k) = A10 m c (ix3 k (0 : Fin 1) (1 : Fin 3)) := by
  obtain ⟨-, -, -, -, -, -, e, -⟩ := idx_vecs t
  show V m c main_v13 (((cfg0.win 12).blk t).view.emb (ix1 k)) = _
  have h : ((cfg0.win 12).blk t).view.emb (ix1 k) = ix1 k := by
    funext a
    apply Fin.ext
    match a with
    | ⟨0, _⟩ => show win0_12.index t (0 : Fin 1) * 512 + 1 * k.val = k.val; omega
  rw [h]
  exact KHost.V_v13 m c k

/-- Window 15 stages the first 16-vector's bias, argument 13. -/
theorem b15_at (c : Dev nD) (t : Fin cfg0.N) (s : Fin 16) : b15 m c t (ix1 s) = A13 m c (ix1 s) := by
  obtain ⟨-, -, -, -, -, -, -, e, -⟩ := idx_vecs t
  show V m c main_arg13 (((cfg0.win 15).blk t).view.emb (ix1 s)) = _
  rw [V_main_arg13]
  refine congrArg (m ((c : Thread nD τ).loc main_arg13)) ?_
  funext a
  apply Fin.ext
  match a with
  | ⟨0, _⟩ => show win0_15.index t (0 : Fin 1) * 16 + 1 * s.val = s.val; omega

/-- Window 17 stages the second 16-vector's bias, argument 15. -/
theorem b17_at (c : Dev nD) (t : Fin cfg0.N) (s : Fin 16) : b17 m c t (ix1 s) = A15 m c (ix1 s) := by
  obtain ⟨-, -, -, -, -, -, -, -, e⟩ := idx_vecs t
  show V m c main_arg15 (((cfg0.win 17).blk t).view.emb (ix1 s)) = _
  rw [V_main_arg15]
  refine congrArg (m ((c : Thread nD τ).loc main_arg15)) ?_
  funext a
  apply Fin.ext
  match a with
  | ⟨0, _⟩ => show win0_17.index t (0 : Fin 1) * 16 + 1 * s.val = s.val; omega

/-- Window 4 stages the first map, transposed by the host: at (k, q), argument 4 at (q, k). -/
theorem b4_at (c : Dev nD) (t : Fin cfg0.N) (k q : Fin 512) : b4 m c t (ix2 k q) = A4 m c (ix2 q k) := by
  obtain ⟨e0, e1, -⟩ := idx_mats t
  show V m c main_v1 (((cfg0.win 4).blk t).view.emb (ix2 k q)) = _
  have h : ((cfg0.win 4).blk t).view.emb (ix2 k q) = ix2 k q := by
    funext a
    apply Fin.ext
    match a with
    | ⟨0, _⟩ => show win0_4.index t (0 : Fin 2) * 512 + 1 * k.val = k.val; omega
    | ⟨1, _⟩ => show win0_4.index t (1 : Fin 2) * 512 + 1 * q.val = q.val; omega
  rw [h]
  exact KHost.V_v1 m c k q

/-- Window 6: the third map (the gate's), argument 6. -/
theorem b6_at (c : Dev nD) (t : Fin cfg0.N) (k q : Fin 512) : b6 m c t (ix2 k q) = A6 m c (ix2 q k) := by
  obtain ⟨-, -, e0, e1, -⟩ := idx_mats t
  show V m c main_v3 (((cfg0.win 6).blk t).view.emb (ix2 k q)) = _
  have h : ((cfg0.win 6).blk t).view.emb (ix2 k q) = ix2 k q := by
    funext a
    apply Fin.ext
    match a with
    | ⟨0, _⟩ => show win0_6.index t (0 : Fin 2) * 512 + 1 * k.val = k.val; omega
    | ⟨1, _⟩ => show win0_6.index t (1 : Fin 2) * 512 + 1 * q.val = q.val; omega
  rw [h]
  exact KHost.V_v3 m c k q

/-- Window 8: the last map, argument 8. -/
theorem b8_at (c : Dev nD) (t : Fin cfg0.N) (k q : Fin 512) : b8 m c t (ix2 k q) = A8 m c (ix2 q k) := by
  obtain ⟨-, -, -, -, e0, e1, -⟩ := idx_mats t
  show V m c main_v5 (((cfg0.win 8).blk t).view.emb (ix2 k q)) = _
  have h : ((cfg0.win 8).blk t).view.emb (ix2 k q) = ix2 k q := by
    funext a
    apply Fin.ext
    match a with
    | ⟨0, _⟩ => show win0_8.index t (0 : Fin 2) * 512 + 1 * k.val = k.val; omega
    | ⟨1, _⟩ => show win0_8.index t (1 : Fin 2) * 512 + 1 * q.val = q.val; omega
  rw [h]
  exact KHost.V_v5 m c k q

/-- Window 10: the second map (the step size's), argument 16. -/
theorem b10_at (c : Dev nD) (t : Fin cfg0.N) (k q : Fin 512) : b10 m c t (ix2 k q) = A16 m c (ix2 q k) := by
  obtain ⟨-, -, -, -, -, -, e0, e1, -⟩ := idx_mats t
  show V m c main_v7 (((cfg0.win 10).blk t).view.emb (ix2 k q)) = _
  have h : ((cfg0.win 10).blk t).view.emb (ix2 k q) = ix2 k q := by
    funext a
    apply Fin.ext
    match a with
    | ⟨0, _⟩ => show win0_10.index t (0 : Fin 2) * 512 + 1 * k.val = k.val; omega
    | ⟨1, _⟩ => show win0_10.index t (1 : Fin 2) * 512 + 1 * q.val = q.val; omega
  rw [h]
  exact KHost.V_v7 m c k q

/-- Window 13: the decay rates' logarithms, argument 11, as they are. -/
theorem b13_at (c : Dev nD) (t : Fin cfg0.N) (d : Fin 512) (s : Fin 16) : b13 m c t (ix2 d s) = A11 m c (ix2 d s) := by
  obtain ⟨-, -, -, -, -, -, -, -, e0, e1, -⟩ := idx_mats t
  show V m c main_arg11 (((cfg0.win 13).blk t).view.emb (ix2 d s)) = _
  rw [V_main_arg11]
  refine congrArg (m ((c : Thread nD τ).loc main_arg11)) ?_
  funext a
  apply Fin.ext
  match a with
  | ⟨0, _⟩ => show win0_13.index t (0 : Fin 2) * 512 + 1 * d.val = d.val; omega
  | ⟨1, _⟩ => show win0_13.index t (1 : Fin 2) * 16 + 1 * s.val = s.val; omega

/-- Window 14: the first 512×16 map, argument 12 transposed. -/
theorem b14_at (c : Dev nD) (t : Fin cfg0.N) (k : Fin 512) (s : Fin 16) : b14 m c t (ix2 k s) = A12 m c (ix2 s k) := by
  obtain ⟨-, -, -, -, -, -, -, -, -, -, e0, e1, -⟩ := idx_mats t
  show V m c main_v9 (((cfg0.win 14).blk t).view.emb (ix2 k s)) = _
  have h : ((cfg0.win 14).blk t).view.emb (ix2 k s) = ix2 k s := by
    funext a
    apply Fin.ext
    match a with
    | ⟨0, _⟩ => show win0_14.index t (0 : Fin 2) * 512 + 1 * k.val = k.val; omega
    | ⟨1, _⟩ => show win0_14.index t (1 : Fin 2) * 16 + 1 * s.val = s.val; omega
  rw [h]
  exact KHost.V_v9 m c k s

/-- Window 16: the second 512×16 map, argument 14 transposed. -/
theorem b16_at (c : Dev nD) (t : Fin cfg0.N) (k : Fin 512) (s : Fin 16) : b16 m c t (ix2 k s) = A14 m c (ix2 s k) := by
  obtain ⟨-, -, -, -, -, -, -, -, -, -, -, -, e0, e1⟩ := idx_mats t
  show V m c main_v11 (((cfg0.win 16).blk t).view.emb (ix2 k s)) = _
  have h : ((cfg0.win 16).blk t).view.emb (ix2 k s) = ix2 k s := by
    funext a
    apply Fin.ext
    match a with
    | ⟨0, _⟩ => show win0_16.index t (0 : Fin 2) * 512 + 1 * k.val = k.val; omega
    | ⟨1, _⟩ => show win0_16.index t (1 : Fin 2) * 16 + 1 * s.val = s.val; omega
  rw [h]
  exact KHost.V_v11 m c k s

/-! ## The parameters the body sees are the arguments' -/

section Params
variable (c : Dev nD) (t : Fin cfg0.N)

theorem w2 : vec512 (b2 m c t) = GArr.v512 (A2 m c) := funext fun k => b2_at m c t k
theorem w3 : vec512 (b3 m c t) = GArr.v512 (A3 m c) := funext fun k => b3_at m c t k
theorem w5 : vec512 (b5 m c t) = GArr.v512 (A5 m c) := funext fun k => b5_at m c t k
theorem w7 : vec512 (b7 m c t) = GArr.v512 (A7 m c) := funext fun k => b7_at m c t k
theorem w9 : vec512 (b9 m c t) = GArr.v512 (A9 m c) := funext fun k => b9_at m c t k
theorem w11 : vec512 (b11 m c t) = GArr.v512 (A17 m c) := funext fun k => b11_at m c t k
theorem w12 : vec512 (b12 m c t) = GArr.tap (A10 m c) := funext fun k => b12_at m c t k
theorem w15 : vec16 (b15 m c t) = GArr.v16 (A13 m c) := funext fun s => b15_at m c t s
theorem w17 : vec16 (b17 m c t) = GArr.v16 (A15 m c) := funext fun s => b17_at m c t s
theorem w4 : mat512 (b4 m c t) = GArr.tr (A4 m c) := funext fun k => funext fun q => b4_at m c t k q
theorem w6 : mat512 (b6 m c t) = GArr.tr (A6 m c) := funext fun k => funext fun q => b6_at m c t k q
theorem w8 : mat512 (b8 m c t) = GArr.tr (A8 m c) := funext fun k => funext fun q => b8_at m c t k q
theorem w10 : mat512 (b10 m c t) = GArr.tr (A16 m c) := funext fun k => funext fun q => b10_at m c t k q
theorem w13 : mat16 (b13 m c t) = GArr.m16 (A11 m c) := funext fun d => funext fun s => b13_at m c t d s
theorem w14 : mat16b (b14 m c t) = GArr.tr16 (A12 m c) := funext fun k => funext fun s => b14_at m c t k s
theorem w16 : mat16b (b16 m c t) = GArr.tr16 (A14 m c) := funext fun k => funext fun s => b16_at m c t k s

theorem wLN : kLN (b2 m c t) (b3 m c t) = GArr.ln (A2 m c) (A3 m c) := by
  unfold kLN GArr.ln; rw [w2, w3]

theorem wCW : kCW (b2 m c t) (b3 m c t) (b4 m c t) (b5 m c t) (b12 m c t)
    = GArr.cw (A2 m c) (A3 m c) (A4 m c) (A5 m c) (A10 m c) := by
  unfold kCW GArr.cw; rw [wLN, w4, w5, w12]

/-- Block row `p` is batch row `r = 32 t + p`. -/
theorem wrow (p : Fin 32) (r : Fin 8192) (hr : r.val = 32 * t.val + p.val) :
    row (b0 m c t) p = GArr.rowOf (A0 m c) r := funext fun k => b0_at m c t p k r hr

theorem wsrow (p : Fin 32) (r : Fin 8192) (hr : r.val = 32 * t.val + p.val) :
    srow (b1 m c t) p = GArr.stateOf (A1 m c) r := funext fun d => funext fun s => b1_at m c t p d s r hr

end Params

/-! ## The two results, whole -/

/-- The output array the specification gives for the arguments. -/
abbrev G18 (c : Dev nD) : GArr.A2 8192 512 :=
  GArr.Gout (A0 m c) (A1 m c) (A2 m c) (A3 m c) (A4 m c) (A5 m c) (A6 m c) (A7 m c) (A8 m c) (A9 m c) (A10 m c) (A11 m c)
    (A12 m c) (A13 m c) (A14 m c) (A15 m c) (A16 m c) (A17 m c)

/-- The state array the specification gives for the arguments. -/
abbrev G19 (c : Dev nD) : GArr.A3 8192 512 16 :=
  GArr.Gstate (A0 m c) (A1 m c) (A2 m c) (A3 m c) (A4 m c) (A5 m c) (A10 m c) (A11 m c) (A12 m c) (A13 m c) (A16 m c) (A17 m c)

/-- What point `t` writes back to the state array is rows 32 t … 32 t + 31 of `G19`. -/
theorem flushed19_eq (c : Dev nD) (t : Fin cfg0.N) :
    (dats m 0 c).flushed 19 t = ((cfg0.win 19).blk t).view.read (Elt Ideal) (G19 m c) := by
  rw [Value.flushed19]
  obtain ⟨-, -, -, -, -, -, -, e0, e1, e2⟩ := idx_rows t
  funext j
  show out0_19 (F := Ideal) (b0 m c t) (b1 m c t) (b2 m c t) (b3 m c t) (b4 m c t) (b5 m c t) (b6 m c t) (b7 m c t) (b8 m c t)
      (b9 m c t) (b10 m c t) (b11 m c t) (b12 m c t) (b13 m c t) (b14 m c t) (b15 m c t) (b16 m c t) (b17 m c t) j
    = G19 m c (((cfg0.win 19).blk t).view.emb j)
  rw [out19_apply]
  have hr : ((((cfg0.win 19).blk t).view.emb j) 0).val = 32 * t.val + (j 0).val := by
    show win0_19.index t (0 : Fin 3) * 32 + 1 * (j 0).val = _; omega
  have h1 : (((cfg0.win 19).blk t).view.emb j) 1 = j 1 :=
    Fin.ext (by show win0_19.index t (1 : Fin 3) * 512 + 1 * (j 1).val = (j 1).val; omega)
  have h2 : (((cfg0.win 19).blk t).view.emb j) 2 = j 2 :=
    Fin.ext (by show win0_19.index t (2 : Fin 3) * 16 + 1 * (j 2).val = (j 2).val; omega)
  show Spec.stateNew (kCW (b2 m c t) (b3 m c t) (b4 m c t) (b5 m c t) (b12 m c t)) (mat512 (b10 m c t)) (vec512 (b11 m c t))
      (mat16b (b14 m c t)) (vec16 (b15 m c t)) (mat16 (b13 m c t)) (row (b0 m c t) (j 0)) (srow (b1 m c t) (j 0)) (j 1) (j 2)
    = Spec.stateNew (GArr.cw (A2 m c) (A3 m c) (A4 m c) (A5 m c) (A10 m c)) (GArr.tr (A16 m c)) (GArr.v512 (A17 m c))
      (GArr.tr16 (A12 m c)) (GArr.v16 (A13 m c)) (GArr.m16 (A11 m c))
      (GArr.rowOf (A0 m c) ((((cfg0.win 19).blk t).view.emb j) 0)) (GArr.stateOf (A1 m c) ((((cfg0.win 19).blk t).view.emb j) 0))
      ((((cfg0.win 19).blk t).view.emb j) 1) ((((cfg0.win 19).blk t).view.emb j) 2)
  rw [h1, h2, wCW, w10, w11, w14, w15, w13, wrow m c t (j 0) _ hr, wsrow m c t (j 0) _ hr]

/-- What point `t` writes back to the output array is rows 32 t … 32 t + 31 of `G18`. -/
theorem flushed18_eq (c : Dev nD) (t : Fin cfg0.N) :
    (dats m 0 c).flushed 18 t = ((cfg0.win 18).blk t).view.read (Elt Ideal) (G18 m c) := by
  rw [Value.flushed18]
  obtain ⟨-, -, -, -, -, e0, e1, -⟩ := idx_rows t
  funext j
  show out0_18 (F := Ideal) (b0 m c t) (b1 m c t) (b2 m c t) (b3 m c t) (b4 m c t) (b5 m c t) (b6 m c t) (b7 m c t) (b8 m c t)
      (b9 m c t) (b10 m c t) (b11 m c t) (b12 m c t) (b13 m c t) (b14 m c t) (b15 m c t) (b16 m c t) (b17 m c t) j
    = G18 m c (((cfg0.win 18).blk t).view.emb j)
  rw [out18_apply]
  have hr : ((((cfg0.win 18).blk t).view.emb j) 0).val = 32 * t.val + (j 0).val := by
    show win0_18.index t (0 : Fin 2) * 32 + 1 * (j 0).val = _; omega
  have h1 : (((cfg0.win 18).blk t).view.emb j) 1 = j 1 :=
    Fin.ext (by show win0_18.index t (1 : Fin 2) * 512 + 1 * (j 1).val = (j 1).val; omega)
  show Spec.out (kCW (b2 m c t) (b3 m c t) (b4 m c t) (b5 m c t) (b12 m c t)) (mat512 (b10 m c t)) (vec512 (b11 m c t))
      (mat16b (b14 m c t)) (vec16 (b15 m c t)) (mat16 (b13 m c t)) (mat16b (b16 m c t)) (vec16 (b17 m c t))
      (mat512 (b6 m c t)) (vec512 (b7 m c t)) (mat512 (b8 m c t)) (vec512 (b9 m c t)) (row (b0 m c t) (j 0)) (srow (b1 m c t) (j 0)) (j 1)
    = Spec.out (GArr.cw (A2 m c) (A3 m c) (A4 m c) (A5 m c) (A10 m c)) (GArr.tr (A16 m c)) (GArr.v512 (A17 m c))
      (GArr.tr16 (A12 m c)) (GArr.v16 (A13 m c)) (GArr.m16 (A11 m c)) (GArr.tr16 (A14 m c)) (GArr.v16 (A15 m c))
      (GArr.tr (A6 m c)) (GArr.v512 (A7 m c)) (GArr.tr (A8 m c)) (GArr.v512 (A9 m c))
      (GArr.rowOf (A0 m c) ((((cfg0.win 18).blk t).view.emb j) 0)) (GArr.stateOf (A1 m c) ((((cfg0.win 18).blk t).view.emb j) 0))
      ((((cfg0.win 18).blk t).view.emb j) 1)
  rw [h1, wCW, w10, w11, w14, w15, w13, w16, w17, w6, w7, w8, w9, wrow m c t (j 0) _ hr, wsrow m c t (j 0) _ hr]

/-- An index of the state array is in point `t`'s block iff each coordinate is in the block's range on its axis. -/
theorem mem_blk19 (t : Fin cfg0.N) (i : S8192x512x16.Idx) :
    i ∈ ((cfg0.win 19).blk t).view.set ↔ ∀ a : Fin 3, win0_19.index t a * S32x512x16.size a ≤ (i a).val
      ∧ (i a).val < win0_19.index t a * S32x512x16.size a + S32x512x16.size a := by
  show i ∈ ((View.whole main_v14_1).slice (win0_19.rect t)).set ↔ _
  rw [View.set_slice_whole, Rect.mem_set_unit]
  exact Iff.rfl

theorem mem_blk18 (t : Fin cfg0.N) (i : S8192x512.Idx) :
    i ∈ ((cfg0.win 18).blk t).view.set ↔ ∀ a : Fin 2, win0_18.index t a * S32x512.size a ≤ (i a).val
      ∧ (i a).val < win0_18.index t a * S32x512.size a + S32x512.size a := by
  show i ∈ ((View.whole main_v14_0).slice (win0_18.rect t)).set ↔ _
  rw [View.set_slice_whole, Rect.mem_set_unit]
  exact Iff.rfl

/-- Row `r` lies in the block of point `r / 32`. -/
theorem cover19 (i : S8192x512x16.Idx) :
    ∃ t : Fin cfg0.N, (cfg0.win 19).flush t = true ∧ i ∈ ((cfg0.win 19).blk t).view.set := by
  have hi0 : (i 0).val < 8192 := (i 0).isLt
  have hi1 : (i 1).val < 512 := (i 1).isLt
  have hi2 : (i 2).val < 16 := (i 2).isLt
  let t : Fin cfg0.N := ⟨(i 0).val / 32, by show (i 0).val / 32 < 256; omega⟩
  have ht : t.val = (i 0).val / 32 := rfl
  obtain ⟨-, -, -, -, -, -, -, e0, e1, e2⟩ := idx_rows t
  refine ⟨t, flush0_19 t, ?_⟩
  rw [mem_blk19]
  intro a
  match a with
  | ⟨0, _⟩ => show win0_19.index t (0 : Fin 3) * 32 ≤ (i 0).val ∧ (i 0).val < win0_19.index t (0 : Fin 3) * 32 + 32; omega
  | ⟨1, _⟩ => show win0_19.index t (1 : Fin 3) * 512 ≤ (i 1).val ∧ (i 1).val < win0_19.index t (1 : Fin 3) * 512 + 512; omega
  | ⟨2, _⟩ => show win0_19.index t (2 : Fin 3) * 16 ≤ (i 2).val ∧ (i 2).val < win0_19.index t (2 : Fin 3) * 16 + 16; omega

theorem cover18 (i : S8192x512.Idx) :
    ∃ t : Fin cfg0.N, (cfg0.win 18).flush t = true ∧ i ∈ ((cfg0.win 18).blk t).view.set := by
  have hi0 : (i 0).val < 8192 := (i 0).isLt
  have hi1 : (i 1).val < 512 := (i 1).isLt
  let t : Fin cfg0.N := ⟨(i 0).val / 32, by show (i 0).val / 32 < 256; omega⟩
  have ht : t.val = (i 0).val / 32 := rfl
  obtain ⟨-, -, -, -, -, e0, e1, -⟩ := idx_rows t
  refine ⟨t, flush0_18 t, ?_⟩
  rw [mem_blk18]
  intro a
  match a with
  | ⟨0, _⟩ => show win0_18.index t (0 : Fin 2) * 32 ≤ (i 0).val ∧ (i 0).val < win0_18.index t (0 : Fin 2) * 32 + 32; omega
  | ⟨1, _⟩ => show win0_18.index t (1 : Fin 2) * 512 ≤ (i 1).val ∧ (i 1).val < win0_18.index t (1 : Fin 2) * 512 + 512; omega

/-- The state array after the run. -/
theorem final19 (c : Dev nD) : (dats m 0 c).arrAt 19 cfg0.N = G19 m c :=
  (dats m 0 c).arrAt_eq_of_cover 19 (G19 m c) (fun t _ => flushed19_eq m c t) cover19

/-- The output array after the run. -/
theorem final18 (c : Dev nD) : (dats m 0 c).arrAt 18 cfg0.N = G18 m c :=
  (dats m 0 c).arrAt_eq_of_cover 18 (G18 m c) (fun t _ => flushed18_eq m c t) cover18

/-- The kernel's run: both results at the specification's arrays, the arguments unchanged. -/
theorem run : θ_run defs (onTc (τ := τ) (main (F := Ideal))) ⟨m, fun _ => 0, ρ⟩ fun r => ∀ c : Dev nD,
      r.2.mem ((c : Thread nD τ).loc main_v14_0) = G18 m c
      ∧ r.2.mem ((c : Thread nD τ).loc main_v14_1) = G19 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final18 m c), (h c).2.1.trans (final19 m c), (h c).2.2⟩)
    (Value.run_blocks m ρ)

end Cert.KernelIdeal.KVal

end
-- ==== Proof.RefDefs.lean ====
/-
  The reference's arrays as plain functions.

  Row `b` of the 8192×512 input is a batch row, row `b` of the 8192×512×16 state its 512×16 state. A weight matrix stored
  (output, input) multiplies entry `k` of the vector by its (q, k) entry: as a matrix in the orientation of the
  specification it is the transpose. The per-channel factor is the middle tap (0, 1) of the 512×1×3 array.
-/
import proofs.«170428_j80187039416644_1_alg».proof.Proof.Gen.ReferenceIdeal.Read
import proofs.«170428_j80187039416644_1_alg».proof.Proof.Spec

noncomputable section

namespace Cert.ReferenceIdeal.RefVal

open Cert.ReferenceIdeal Idealize.ShloMosaic Idealize.ShloMosaic.ValueIdx

abbrev A8192x512 := (⟨S8192x512, .f32⟩ : BufTy).Contents (Elt Ideal)
abbrev A8192x512x16 := (⟨S8192x512x16, .f32⟩ : BufTy).Contents (Elt Ideal)
abbrev A512 := (⟨S512, .f32⟩ : BufTy).Contents (Elt Ideal)
abbrev A512x512 := (⟨S512x512, .f32⟩ : BufTy).Contents (Elt Ideal)
abbrev A512x1x3 := (⟨S512x1x3, .f32⟩ : BufTy).Contents (Elt Ideal)
abbrev A512x16 := (⟨S512x16, .f32⟩ : BufTy).Contents (Elt Ideal)
abbrev A16x512 := (⟨S16x512, .f32⟩ : BufTy).Contents (Elt Ideal)
abbrev A16 := (⟨S16, .f32⟩ : BufTy).Contents (Elt Ideal)

def rv512 (a : A512) : Spec.V512 := fun k => a (ix1 k)
def rv16 (a : A16) : Spec.V16 := fun s => a (ix1 s)
/-- A (output, input) matrix in the orientation in which it is contracted. -/
def rT (a : A512x512) : Spec.M512 := fun k q => a (ix2 q k)
def rT16 (a : A16x512) : Spec.M16 := fun k s => a (ix2 s k)
def rm16 (a : A512x16) : Spec.M16 := fun d s => a (ix2 d s)
/-- The middle tap. -/
def rtap (a : A512x1x3) : Spec.V512 := fun k => a (ix3 k (0 : Fin 1) (1 : Fin 3))
def rrow (a0 : A8192x512) (b : Fin 8192) : Spec.V512 := fun k => a0 (ix2 b k)
def rsrow (a1 : A8192x512x16) (b : Fin 8192) : Spec.M16 := fun d s => a1 (ix3 b d s)
def rLN (a2 a3 : A512) : Spec.LN := ⟨rv512 a2, rv512 a3⟩
def rCW (a2 a3 : A512) (a4 : A512x512) (a5 : A512) (a10 : A512x1x3) : Spec.CW := ⟨rLN a2 a3, rT a4, rv512 a5, rtap a10⟩

end Cert.ReferenceIdeal.RefVal

end
-- ==== Proof.RefPre.lean ====
/-
  The reference's stages up to the vectors every slot shares, read at coordinates: each is the specification's function of
  the batch row.
-/
import proofs.«170428_j80187039416644_1_alg».proof.Proof.RefDefs
import proofs.«170428_j80187039416644_1_alg».proof.Proof.LibMatRows

noncomputable section

namespace Cert.ReferenceIdeal.RefVal

open Cert.ReferenceIdeal Cert.ReferenceIdeal.Read Idealize.ShloMosaic Idealize.ShloMosaic.ValueIdx
open scoped BigOperators

variable (a0 : A8192x512) (a2 a3 : A512) (a4 : A512x512) (a5 : A512) (a10 : A512x1x3)

/-! ## Index arithmetic on literal extents -/

private theorem i_row1 (b : Fin 8192) (u : Fin 1) : idx_main_v1 (ix2 b u) = ix1 b := by
  funext a; match a with | ⟨0, _⟩ => rfl
private theorem i_row8 (b : Fin 8192) (u : Fin 1) : idx_main_v8 (ix2 b u) = ix1 b := by
  funext a; match a with | ⟨0, _⟩ => rfl
private theorem i_sum0 (b : Fin 8192) (k : Fin 512) : idx_main_v0 (ix1 b) k = ix2 b k := by
  funext a; match a with | ⟨0, _⟩ => rfl | ⟨1, _⟩ => rfl
private theorem i_sum7 (b : Fin 8192) (k : Fin 512) : idx_main_v7 (ix1 b) k = ix2 b k := by
  funext a; match a with | ⟨0, _⟩ => rfl | ⟨1, _⟩ => rfl
private theorem i_col4 (b : Fin 8192) (q : Fin 512) : idx_main_v4 (ix2 b q) = ix2 b (0 : Fin 1) := by
  funext a; match a with | ⟨0, _⟩ => rfl | ⟨1, _⟩ => rfl
private theorem i_col11 (b : Fin 8192) (q : Fin 512) : idx_main_v11 (ix2 b q) = ix2 b (0 : Fin 1) := by
  funext a; match a with | ⟨0, _⟩ => rfl | ⟨1, _⟩ => rfl
private theorem i_col16 (b : Fin 8192) (q : Fin 512) : idx_main_v16 (ix2 b q) = ix2 b (0 : Fin 1) := by
  funext a; match a with | ⟨0, _⟩ => rfl | ⟨1, _⟩ => rfl
private theorem i_vec19 (b : Fin 8192) (q : Fin 512) : idx_main_v18 (idx_main_v19 (ix2 b q)) = ix1 q := by
  funext a; match a with | ⟨0, _⟩ => rfl
private theorem i_vec22 (b : Fin 8192) (q : Fin 512) : idx_main_v21 (idx_main_v22 (ix2 b q)) = ix1 q := by
  funext a; match a with | ⟨0, _⟩ => rfl

/-! ## The normalisation -/

/-- The row mean, held in the column (b, 0). -/
private theorem r_mean (b : Fin 8192) (u : Fin 1) :
    val_main_v3 (F := Ideal) a0 (ix2 b u) = Spec.mean (rrow a0 b) := by
  rw [val_main_v3_apply, val_main_v1_apply, i_row1, val_main_v0_apply, val_main_v2_apply]
  simp only [i_sum0]
  exact Spec.mean_host (rrow a0 b)

/-- The centred entry (the first copy). -/
private theorem r_cen5 (b : Fin 8192) (q : Fin 512) :
    val_main_v5 (F := Ideal) a0 (ix2 b q) = Spec.centred (rrow a0 b) q := by
  rw [val_main_v5_apply, val_main_v4_apply, i_col4, r_mean]
  rfl

/-- The centred entry (the second copy). -/
private theorem r_cen12 (b : Fin 8192) (q : Fin 512) :
    val_main_v12 (F := Ideal) a0 (ix2 b q) = Spec.centred (rrow a0 b) q := by
  rw [val_main_v12_apply, val_main_v11_apply, i_col11, r_mean]
  rfl

/-- The row variance. -/
private theorem r_var (b : Fin 8192) (u : Fin 1) :
    val_main_v10 (F := Ideal) a0 (ix2 b u) = Spec.variance (rrow a0 b) := by
  rw [val_main_v10_apply, val_main_v8_apply, i_row8, val_main_v7_apply, val_main_v9_apply]
  simp only [i_sum7, val_main_v6_apply, r_cen5]
  exact Spec.mean_host (fun k => Spec.centred (rrow a0 b) k * Spec.centred (rrow a0 b) k)

/-- The normalised rows at (b, q). -/
theorem ref_xn (b : Fin 8192) (q : Fin 512) :
    val_main_v23 (F := Ideal) a0 a2 a3 (ix2 b q) = Spec.normed (rLN a2 a3) (rrow a0 b) q := by
  rw [val_main_v23_apply, val_main_v20_apply, val_main_v17_apply, r_cen12, val_main_v16_apply, i_col16,
    val_main_v15_apply, val_main_v14_apply, r_var, val_main_v13_apply, val_main_v19_apply, val_main_v18_apply, i_vec19,
    val_main_v22_apply, val_main_v21_apply, i_vec22]
  rfl

/-! ## The first map, the tap and the activation -/

private theorem i_l25 (b : Fin 8192) (q k : Fin 512) : lidx_main_v25 (ix2 b q) k = ix2 b k := by
  funext a; match a with | ⟨0, _⟩ => rfl | ⟨1, _⟩ => rfl
private theorem i_r25 (b : Fin 8192) (q k : Fin 512) : ridx_main_v25 (ix2 b q) k = ix2 k q := by
  funext a; match a with | ⟨0, _⟩ => rfl | ⟨1, _⟩ => rfl
private theorem i_t24 (k q : Fin 512) : idx_main_v24 (ix2 k q) = ix2 q k := by
  funext a; match a with | ⟨0, _⟩ => rfl | ⟨1, _⟩ => rfl
private theorem i_vec27 (b : Fin 8192) (q : Fin 512) : idx_main_v26 (idx_main_v27 (ix2 b q)) = ix1 q := by
  funext a; match a with | ⟨0, _⟩ => rfl
private theorem i_tap (b : Fin 8192) (q : Fin 512) :
    idx_main_v29 (idx_main_v30 (idx_main_v31 (idx_main_v32 (ix2 b q)))) = ix3 q (0 : Fin 1) (1 : Fin 3) := by
  funext a; apply Fin.ext
  match a with
  | ⟨0, _⟩ => exact Nat.div_one q.val
  | ⟨1, _⟩ => rfl
  | ⟨2, _⟩ => rfl

/-- The first map with its bias, times the per-channel factor. -/
private theorem r_pre (b : Fin 8192) (q : Fin 512) :
    val_main_v33 (F := Ideal) a0 a2 a3 a4 a5 a10 (ix2 b q)
      = Spec.lin (Spec.normed (rLN a2 a3) (rrow a0 b)) (rT a4) (rv512 a5) q * rtap a10 q := by
  rw [val_main_v33_apply, val_main_v28_apply, val_main_v25_apply, val_main_v27_apply, val_main_v26_apply, i_vec27,
    val_main_v32_apply, val_main_v31_apply, val_main_v30_apply, val_main_v29_apply, i_tap]
  simp only [i_l25, i_r25, val_main_v24_apply, i_t24, ref_xn]
  rfl

/-- The convolved activation at (b, q). -/
theorem ref_conv (b : Fin 8192) (q : Fin 512) :
    val_main_v34 (F := Ideal) a0 a2 a3 a4 a5 a10 (ix2 b q) = Spec.conv (rCW a2 a3 a4 a5 a10) (rrow a0 b) q := by
  rw [val_main_v34_apply, val_main_call0_v5_apply, val_main_call0_v4_apply, val_main_call0_v3_apply,
    val_main_call0_v2_apply, val_main_call0_v1_apply, val_main_call0_v0_apply, r_pre]
  exact Spec.silu_host _

/-- The decay rates at (d, s). -/
theorem ref_amat (a11 : A512x16) (d : Fin 512) (s : Fin 16) :
    val_main_v36 (F := Ideal) a11 (ix2 d s) = Spec.amat (rm16 a11) d s := by
  rw [val_main_v36_apply, val_main_v35_apply]
  rfl

/-! ## The step size -/

private theorem i_l38 (b : Fin 8192) (q k : Fin 512) : lidx_main_v38 (ix2 b q) k = ix2 b k := by
  funext a; match a with | ⟨0, _⟩ => rfl | ⟨1, _⟩ => rfl
private theorem i_r38 (b : Fin 8192) (q k : Fin 512) : ridx_main_v38 (ix2 b q) k = ix2 k q := by
  funext a; match a with | ⟨0, _⟩ => rfl | ⟨1, _⟩ => rfl
private theorem i_t37 (k q : Fin 512) : idx_main_v37 (ix2 k q) = ix2 q k := by
  funext a; match a with | ⟨0, _⟩ => rfl | ⟨1, _⟩ => rfl
private theorem i_vec40 (b : Fin 8192) (q : Fin 512) : idx_main_v39 (idx_main_v40 (ix2 b q)) = ix1 q := by
  funext a; match a with | ⟨0, _⟩ => rfl

/-- The second map with its bias. -/
private theorem r_dz (a16 : A512x512) (a17 : A512) (b : Fin 8192) (q : Fin 512) :
    val_main_v41 (F := Ideal) a0 a2 a3 a4 a5 a10 a16 a17 (ix2 b q)
      = Spec.lin (Spec.conv (rCW a2 a3 a4 a5 a10) (rrow a0 b)) (rT a16) (rv512 a17) q := by
  rw [val_main_v41_apply, val_main_v38_apply, val_main_v40_apply, val_main_v39_apply, i_vec40]
  simp only [i_l38, i_r38, val_main_v37_apply, i_t37, ref_conv]
  rfl

/-- The step size at (b, q). -/
theorem ref_delta (a16 : A512x512) (a17 : A512) (b : Fin 8192) (q : Fin 512) :
    val_main_v42 (F := Ideal) a0 a2 a3 a4 a5 a10 a16 a17 (ix2 b q)
      = Spec.delta (rCW a2 a3 a4 a5 a10) (rT a16) (rv512 a17) (rrow a0 b) q := by
  rw [val_main_v42_apply, val_main_call1_v4_apply, val_main_call1_v3_apply, val_main_call1_v2_apply,
    val_main_call1_v6_apply, val_main_call1_v5_apply, val_main_call1_v11_apply, val_main_call1_v1_apply,
    val_main_call1_v0_apply, val_main_call1_v10_apply, val_main_call1_v9_apply, val_main_call1_v8_apply,
    val_main_call1_v7_apply, val_main_call1_v3_apply, val_main_call1_v2_apply, r_dz]
  exact Spec.softplus_host _

/-! ## The two 16-vectors -/

private theorem i_l44 (b : Fin 8192) (s : Fin 16) (k : Fin 512) : lidx_main_v44 (ix2 b s) k = ix2 b k := by
  funext a; match a with | ⟨0, _⟩ => rfl | ⟨1, _⟩ => rfl
private theorem i_r44 (b : Fin 8192) (s : Fin 16) (k : Fin 512) : ridx_main_v44 (ix2 b s) k = ix2 k s := by
  funext a; match a with | ⟨0, _⟩ => rfl | ⟨1, _⟩ => rfl
private theorem i_t43 (k : Fin 512) (s : Fin 16) : idx_main_v43 (ix2 k s) = ix2 s k := by
  funext a; match a with | ⟨0, _⟩ => rfl | ⟨1, _⟩ => rfl
private theorem i_vec46 (b : Fin 8192) (s : Fin 16) : idx_main_v45 (idx_main_v46 (ix2 b s)) = ix1 s := by
  funext a; match a with | ⟨0, _⟩ => rfl
private theorem i_l49 (b : Fin 8192) (s : Fin 16) (k : Fin 512) : lidx_main_v49 (ix2 b s) k = ix2 b k := by
  funext a; match a with | ⟨0, _⟩ => rfl | ⟨1, _⟩ => rfl
private theorem i_r49 (b : Fin 8192) (s : Fin 16) (k : Fin 512) : ridx_main_v49 (ix2 b s) k = ix2 k s := by
  funext a; match a with | ⟨0, _⟩ => rfl | ⟨1, _⟩ => rfl
private theorem i_t48 (k : Fin 512) (s : Fin 16) : idx_main_v48 (ix2 k s) = ix2 s k := by
  funext a; match a with | ⟨0, _⟩ => rfl | ⟨1, _⟩ => rfl
private theorem i_vec51 (b : Fin 8192) (s : Fin 16) : idx_main_v50 (idx_main_v51 (ix2 b s)) = ix1 s := by
  funext a; match a with | ⟨0, _⟩ => rfl

/-- The first 16-vector at (b, s). -/
theorem ref_bm (a12 : A16x512) (a13 : A16) (b : Fin 8192) (s : Fin 16) :
    val_main_v47 (F := Ideal) a0 a2 a3 a4 a5 a10 a12 a13 (ix2 b s)
      = Spec.proj16 (rCW a2 a3 a4 a5 a10) (rT16 a12) (rv16 a13) (rrow a0 b) s := by
  rw [val_main_v47_apply, val_main_v44_apply, val_main_v46_apply, val_main_v45_apply, i_vec46]
  simp only [i_l44, i_r44, val_main_v43_apply, i_t43, ref_conv]
  rfl

/-- The second 16-vector at (b, s). -/
theorem ref_cm (a14 : A16x512) (a15 : A16) (b : Fin 8192) (s : Fin 16) :
    val_main_v52 (F := Ideal) a0 a2 a3 a4 a5 a10 a14 a15 (ix2 b s)
      = Spec.proj16 (rCW a2 a3 a4 a5 a10) (rT16 a14) (rv16 a15) (rrow a0 b) s := by
  rw [val_main_v52_apply, val_main_v49_apply, val_main_v51_apply, val_main_v50_apply, i_vec51]
  simp only [i_l49, i_r49, val_main_v48_apply, i_t48, ref_conv]
  rfl

end Cert.ReferenceIdeal.RefVal

end
-- ==== Proof.RefPost.lean ====
/-
  The reference's two results, read at coordinates: the new state is `stateNew` of the batch row and its old state, the
  output row `out`.
-/
import proofs.«170428_j80187039416644_1_alg».proof.Proof.RefPre

noncomputable section

namespace Cert.ReferenceIdeal.RefVal

open Cert.ReferenceIdeal Cert.ReferenceIdeal.Read Idealize.ShloMosaic Idealize.ShloMosaic.ValueIdx
open scoped BigOperators

variable (a0 : A8192x512) (a1 : A8192x512x16) (a2 a3 : A512) (a4 : A512x512) (a5 : A512) (a6 : A512x512) (a7 : A512)
  (a8 : A512x512) (a9 : A512) (a10 : A512x1x3) (a11 : A512x16) (a12 : A16x512) (a13 : A16) (a14 : A16x512) (a15 : A16)
  (a16 : A512x512) (a17 : A512)

/-! ## Index equations: where each broadcast, transpose and contraction reads its operand -/

private theorem i55 (b : Fin 8192) (d : Fin 512) (s : Fin 16) : idx_main_v53 (idx_main_v55 (ix3 b d s)) = ix2 b d := by
  funext a; apply Fin.ext; match a with | ⟨0, _⟩ => rfl | ⟨1, _⟩ => rfl
private theorem i56 (b : Fin 8192) (d : Fin 512) (s : Fin 16) : idx_main_v54 (idx_main_v56 (ix3 b d s)) = ix2 d s := by
  funext a; apply Fin.ext; match a with | ⟨0, _⟩ => rfl | ⟨1, _⟩ => rfl
private theorem i62 (b : Fin 8192) (d : Fin 512) (s : Fin 16) : idx_main_v60 (idx_main_v62 (ix3 b d s)) = ix2 b d := by
  funext a; apply Fin.ext; match a with | ⟨0, _⟩ => rfl | ⟨1, _⟩ => rfl
private theorem i63 (b : Fin 8192) (d : Fin 512) (s : Fin 16) : idx_main_v61 (idx_main_v63 (ix3 b d s)) = ix2 b s := by
  funext a; apply Fin.ext; match a with | ⟨0, _⟩ => rfl | ⟨1, _⟩ => rfl
private theorem i66 (b : Fin 8192) (d : Fin 512) (s : Fin 16) : idx_main_v65 (idx_main_v66 (ix3 b d s)) = ix2 b d := by
  funext a; apply Fin.ext; match a with | ⟨0, _⟩ => rfl | ⟨1, _⟩ => rfl
private theorem i70 (b : Fin 8192) (d : Fin 512) (s : Fin 16) : idx_main_v69 (idx_main_v70 (ix3 b d s)) = ix2 b s := by
  funext a; apply Fin.ext; match a with | ⟨0, _⟩ => rfl | ⟨1, _⟩ => rfl
private theorem i72 (b : Fin 8192) (d : Fin 512) (s : Fin 16) : idx_main_v72 (ix2 b d) s = ix3 b d s := by
  funext a; apply Fin.ext; match a with | ⟨0, _⟩ => rfl | ⟨1, _⟩ => rfl | ⟨2, _⟩ => rfl
private theorem l74 (b : Fin 8192) (d k : Fin 512) : lidx_main_v74 (ix2 b d) k = ix2 b k := by
  funext a; apply Fin.ext; match a with | ⟨0, _⟩ => rfl | ⟨1, _⟩ => rfl
private theorem r74 (b : Fin 8192) (d k : Fin 512) : idx_main_v73 (ridx_main_v74 (ix2 b d) k) = ix2 d k := by
  funext a; apply Fin.ext; match a with | ⟨0, _⟩ => rfl | ⟨1, _⟩ => rfl
private theorem i76 (b : Fin 8192) (d : Fin 512) : idx_main_v75 (idx_main_v76 (ix2 b d)) = ix1 d := by
  funext a; apply Fin.ext; match a with | ⟨0, _⟩ => rfl
private theorem l81 (b : Fin 8192) (q k : Fin 512) : lidx_main_v81 (ix2 b q) k = ix2 b k := by
  funext a; apply Fin.ext; match a with | ⟨0, _⟩ => rfl | ⟨1, _⟩ => rfl
private theorem r81 (b : Fin 8192) (q k : Fin 512) : idx_main_v80 (ridx_main_v81 (ix2 b q) k) = ix2 q k := by
  funext a; apply Fin.ext; match a with | ⟨0, _⟩ => rfl | ⟨1, _⟩ => rfl
private theorem i83 (b : Fin 8192) (q : Fin 512) : idx_main_v82 (idx_main_v83 (ix2 b q)) = ix1 q := by
  funext a; apply Fin.ext; match a with | ⟨0, _⟩ => rfl

/-- The new state at (b, d, s). -/
theorem ref_state (b : Fin 8192) (d : Fin 512) (s : Fin 16) :
    val_main_v68 (F := Ideal) a0 a1 a2 a3 a4 a5 a10 a11 a12 a13 a16 a17 (ix3 b d s)
      = Spec.stateNew (rCW a2 a3 a4 a5 a10) (rT a16) (rv512 a17) (rT16 a12) (rv16 a13) (rm16 a11) (rrow a0 b) (rsrow a1 b) d s := by
  rw [val_main_v68_apply, val_main_v59_apply, val_main_v58_apply, val_main_v57_apply, val_main_v55_apply,
    val_main_v53_apply, val_main_v56_apply, val_main_v54_apply, val_main_v67_apply, val_main_v64_apply,
    val_main_v62_apply, val_main_v60_apply, val_main_v63_apply, val_main_v61_apply, val_main_v66_apply,
    val_main_v65_apply, i55, i56, i62, i63, i66, ref_delta, ref_amat, ref_bm, ref_conv]
  rfl

/-- The third map of the normalised row, before the gate's nonlinearity, at (b, d). -/
private theorem ref_pregate (b : Fin 8192) (d : Fin 512) :
    val_main_v77 (F := Ideal) a0 a2 a3 a6 a7 (ix2 b d)
      = Spec.lin (Spec.normed (rLN a2 a3) (rrow a0 b)) (rT a6) (rv512 a7) d := by
  rw [val_main_v77_apply, val_main_v74_apply, val_main_v76_apply, val_main_v75_apply, i76]
  simp only [l74, val_main_v73_apply, r74, ref_xn]
  rfl

/-- The gate at (b, d). -/
theorem ref_gate (b : Fin 8192) (d : Fin 512) :
    val_main_v78 (F := Ideal) a0 a2 a3 a6 a7 (ix2 b d) = Spec.gate (rLN a2 a3) (rT a6) (rv512 a7) (rrow a0 b) d := by
  rw [val_main_v78_apply, val_main_call2_v5_apply, val_main_call2_v4_apply, val_main_call2_cst_0_apply,
    val_main_call2_v3_apply, val_main_call2_v2_apply, val_main_call2_cst_apply, val_main_call2_v1_apply,
    val_main_call2_v0_apply, ref_pregate]
  exact Spec.silu_host _

/-- The slots summed against the second 16-vector at (b, d). -/
private theorem ref_ssm (b : Fin 8192) (d : Fin 512) :
    val_main_v72 (F := Ideal) a0 a1 a2 a3 a4 a5 a10 a11 a12 a13 a14 a15 a16 a17 (ix2 b d)
      = Spec.ssm (rCW a2 a3 a4 a5 a10) (rT a16) (rv512 a17) (rT16 a12) (rv16 a13) (rm16 a11) (rT16 a14) (rv16 a15)
          (rrow a0 b) (rsrow a1 b) d := by
  rw [val_main_v72_apply, val_main_cst_4_apply]
  simp only [i72, val_main_v71_apply, val_main_v70_apply, val_main_v69_apply, i70, ref_state, ref_cm]
  exact Spec.zero_add_eq _

/-- The gated sum at (b, d). -/
private theorem ref_gated (b : Fin 8192) (d : Fin 512) :
    val_main_v79 (F := Ideal) a0 a1 a2 a3 a4 a5 a6 a7 a10 a11 a12 a13 a14 a15 a16 a17 (ix2 b d)
      = Spec.ssm (rCW a2 a3 a4 a5 a10) (rT a16) (rv512 a17) (rT16 a12) (rv16 a13) (rm16 a11) (rT16 a14) (rv16 a15)
          (rrow a0 b) (rsrow a1 b) d * Spec.gate (rLN a2 a3) (rT a6) (rv512 a7) (rrow a0 b) d := by
  rw [val_main_v79_apply, ref_ssm, ref_gate]
  rfl

/-- The output at (b, q). -/
theorem ref_out (b : Fin 8192) (q : Fin 512) :
    val_main_v84 (F := Ideal) a0 a1 a2 a3 a4 a5 a6 a7 a8 a9 a10 a11 a12 a13 a14 a15 a16 a17 (ix2 b q)
      = Spec.out (rCW a2 a3 a4 a5 a10) (rT a16) (rv512 a17) (rT16 a12) (rv16 a13) (rm16 a11) (rT16 a14) (rv16 a15)
          (rT a6) (rv512 a7) (rT a8) (rv512 a9) (rrow a0 b) (rsrow a1 b) q := by
  rw [val_main_v84_apply, val_main_v81_apply, val_main_v83_apply, val_main_v82_apply, i83]
  simp only [l81, val_main_v80_apply, r81, ref_gated]
  rfl

end Cert.ReferenceIdeal.RefVal

end
-- ==== Proof.RefFinal.lean ====
/-
  The reference's two results as whole arrays: the output is `Gout` of the argument arrays, the new state `Gstate`.
-/
import proofs.«170428_j80187039416644_1_alg».proof.Proof.RefPost
import proofs.«170428_j80187039416644_1_alg».proof.Proof.GArr

noncomputable section

namespace Cert.ReferenceIdeal.RefVal

open Cert.ReferenceIdeal Cert.ReferenceIdeal.Read Idealize.ShloMosaic Idealize.ShloMosaic.ValueIdx

variable (a0 : A8192x512) (a1 : A8192x512x16) (a2 a3 : A512) (a4 : A512x512) (a5 : A512) (a6 : A512x512) (a7 : A512)
  (a8 : A512x512) (a9 : A512) (a10 : A512x1x3) (a11 : A512x16) (a12 : A16x512) (a13 : A16) (a14 : A16x512) (a15 : A16)
  (a16 : A512x512) (a17 : A512)

/-- The output array. -/
theorem ref_out_eq :
    val_main_v84 (F := Ideal) a0 a1 a2 a3 a4 a5 a6 a7 a8 a9 a10 a11 a12 a13 a14 a15 a16 a17
      = GArr.Gout a0 a1 a2 a3 a4 a5 a6 a7 a8 a9 a10 a11 a12 a13 a14 a15 a16 a17 := by
  funext i
  obtain ⟨b, q, rfl⟩ : ∃ (b : Fin 8192) (q : Fin 512), i = ix2 b q := ⟨i 0, i 1, eq_ix2 i⟩
  exact ref_out a0 a1 a2 a3 a4 a5 a6 a7 a8 a9 a10 a11 a12 a13 a14 a15 a16 a17 b q

/-- The new state array. -/
theorem ref_state_eq :
    val_main_v68 (F := Ideal) a0 a1 a2 a3 a4 a5 a10 a11 a12 a13 a16 a17
      = GArr.Gstate a0 a1 a2 a3 a4 a5 a10 a11 a12 a13 a16 a17 := by
  funext i
  obtain ⟨b, d, s, rfl⟩ : ∃ (b : Fin 8192) (d : Fin 512) (s : Fin 16), i = ix3 b d s := ⟨i 0, i 1, i 2, eq_ix3 i⟩
  exact ref_state a0 a1 a2 a3 a4 a5 a10 a11 a12 a13 a16 a17 b d s

end Cert.ReferenceIdeal.RefVal

end
-- ==== Proof.lean ====
/-
  The certificate: the kernel (a normalisation, four 512×512 and two 512×16 maps, a sixteen-slot state update per channel and
  a gated output map, over batch rows taken 32 at a time) computes, on the extended reals, the same two arrays as the
  reference that works on all 8192 rows at once.

  Both programs' results are the specification's functions of the eighteen argument arrays, index by index: the output at
  (b, q) is `Spec.out` of batch row `b`, the new state at (b, d, s) is `Spec.stateNew` of row `b` and its old state. For the
  kernel this is read off its run block by block (each point of the grid writes back 32 rows, and the 256 points cover all
  rows); for the reference it is read off its run one host operation at a time. The two spell a few scalar functions
  differently (the guard in front of softplus, `0 - e`, the logistic function written out, sums started from a zero, the
  slots added one after the other): on the extended reals these are equal without any condition on the inputs, so the
  precondition is never opened. The three frames are the generated ones; no operation was rewritten by the idealization,
  so there is nothing to preserve.
-/
import proofs.«170428_j80187039416644_1_alg».proof.Defs
import proofs.«170428_j80187039416644_1_alg».proof.Proof.Gen.Kernel
import proofs.«170428_j80187039416644_1_alg».proof.Proof.Gen.Kernel.Skeleton
import proofs.«170428_j80187039416644_1_alg».proof.Proof.Gen.Kernel.Launch
import proofs.«170428_j80187039416644_1_alg».proof.Proof.Gen.Kernel.Points
import proofs.«170428_j80187039416644_1_alg».proof.Proof.Gen.Kernel.Frame
import proofs.«170428_j80187039416644_1_alg».proof.Proof.Gen.KernelIdeal
import proofs.«170428_j80187039416644_1_alg».proof.Proof.Gen.KernelIdeal.Skeleton
import proofs.«170428_j80187039416644_1_alg».proof.Proof.Gen.KernelIdeal.Launch
import proofs.«170428_j80187039416644_1_alg».proof.Proof.Gen.KernelIdeal.Points
import proofs.«170428_j80187039416644_1_alg».proof.Proof.Gen.KernelIdeal.Frame
import proofs.«170428_j80187039416644_1_alg».proof.Proof.Gen.ReferenceIdeal
import proofs.«170428_j80187039416644_1_alg».proof.Proof.Gen.Pre_finite_inputs
import proofs.«170428_j80187039416644_1_alg».proof.Proof.Gen.KernelIdeal.Value
import proofs.«170428_j80187039416644_1_alg».proof.Proof.Gen.ReferenceIdeal.Run
import proofs.«170428_j80187039416644_1_alg».proof.Proof.Gen.ReferenceIdeal.Read
import proofs.«170428_j80187039416644_1_alg».proof.Proof.KBlocks
import proofs.«170428_j80187039416644_1_alg».proof.Proof.RefFinal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end at the specification's two arrays of arguments that agree. -/
theorem algebraic : Cert.algebraic_KernelIdeal_ReferenceIdeal := by
  intro m ρ m' ρ' _ hagree
  refine ⟨fun c => Cert.KernelIdeal.KVal.G18 m c, fun c => Cert.KernelIdeal.KVal.G19 m c, Cert.KernelIdeal.KVal.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    rw [Cert.ReferenceIdeal.Read.val_main_v84_eq, Cert.ReferenceIdeal.RefVal.ref_out_eq,
      h0, h1, h2, h3, h4, h5, h6, h7, h8, h9, h10, h11, h12, h13, h14, h15, h16, h17]
  · obtain ⟨h0, h1, h2, h3, h4, h5, -, -, -, -, h10, h11, h12, h13, -, -, h16, h17⟩ := hagree c
    rw [Cert.ReferenceIdeal.Read.val_main_v68_eq, Cert.ReferenceIdeal.RefVal.ref_state_eq,
      h0, h1, h2, h3, h4, h5, h10, h11, h12, h13, h16, h17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
